-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x300000 : Shape := ⟨2, ![2, 300000]⟩
abbrev S300000x3 : Shape := ⟨2, ![300000, 3]⟩
abbrev S515x256 : Shape := ⟨2, ![515, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S300000x3 : S_.BroadcastsInDim S300000x3 (![] : Fin 0 → Fin S300000x3.rank)
  reducesTo_S300000x3_S_d0_1 : S300000x3.ReducesTo [0, 1] S_
  bcast_S_S515x256 : S_.BroadcastsInDim S515x256 (![] : Fin 0 → Fin S515x256.rank)
  reducesTo_S515x256_S_d0_1 : S515x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  bcast_S_S2x300000 : S_.BroadcastsInDim S2x300000 (![] : Fin 0 → Fin S2x300000.rank)
  reducesTo_S2x300000_S_d0_1 : S2x300000.ReducesTo [0, 1] S_

variable [Facts]

def fn_part3 {F : FTy → Type} [FloatOps F] (main_arg1 : IVec S2x300000 32) (main_v48 : IVec S_ 1) (main_v50 : IVec S2x300000 1) : IVec S_ 1 :=
  let main_c_19 : IVec S_ 32 := constantI S_ 32 50000#32
  let main_v51 : IVec S2x300000 32 := broadcastInDim S2x300000 ![] bcast_S_S2x300000 main_c_19
  let main_v52 : IVec S2x300000 1 := cmpi .slt main_arg1 main_v51
  let main_v53 : IVec S2x300000 1 := andi main_v50 main_v52
  let main_c_20 : IVec S_ 1 := constantI S_ 1 1#1
  let main_v54 : IVec S_ 1 := (fun x v => Host.reduce IntOp.andi x v reducesTo_S2x300000_S_d0_1 h_S_) main_v53 main_c_20
  let main_v55 : IVec S_ 1 := andi main_v48 main_v54
  main_v55

def fn_part2 {F : FTy → Type} [FloatOps F] (main_arg1 : IVec S2x300000 32) (main_arg8 : FVec F S64 .f32) (main_arg9 : FVec F S64x3 .f32) (main_arg10 : FVec F S3 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x3 .f32 := Host.absf main_arg9
  let main_cst_14 : FVec F S_ .f32 := constant S_ .f32 0x7F800000#32
  let main_v40 : FVec F S64x3 .f32 := broadcastInDim S64x3 ![] bcast_S_S64x3 main_cst_14
  let main_v41 : IVec S64x3 1 := cmpf .olt main_v39 main_v40
  let main_c_15 : IVec S_ 1 := constantI S_ 1 1#1
  let main_v42 : IVec S_ 1 := (fun x v => Host.reduce IntOp.andi x v reducesTo_S64x3_S_d0_1 h_S_) main_v41 main_c_15
  let main_v43 : IVec S_ 1 := andi main_v38 main_v42
  let main_v44 : FVec F S3 .f32 := Host.absf main_arg10
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_c_18 : IVec S_ 32 := constantI S_ 32 4294917296#32
  let main_v49 : IVec S2x300000 32 := broadcastInDim S2x300000 ![] bcast_S_S2x300000 main_c_18
  let main_v50 : IVec S2x300000 1 := cmpi .sge main_arg1 main_v49
  fn_part3 (F := F) main_arg1 main_v48 main_v50

def fn_part1 {F : FTy → Type} [FloatOps F] (main_arg1 : IVec S2x300000 32) (main_arg5 : FVec F S256x128 .f32) (main_arg6 : FVec F S128 .f32) (main_arg7 : FVec F S128x64 .f32) (main_arg8 : FVec F S64 .f32) (main_arg9 : FVec F S64x3 .f32) (main_arg10 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x256 .f32) (main_arg1 : IVec S2x300000 32) (main_arg2 : FVec F S300000x3 .f32) (main_arg3 : FVec F S515x256 .f32) (main_arg4 : FVec F S256 .f32) (main_arg5 : FVec F S256x128 .f32) (main_arg6 : FVec F S128 .f32) (main_arg7 : FVec F S128x64 .f32) (main_arg8 : FVec F S64 .f32) (main_arg9 : FVec F S64x3 .f32) (main_arg10 : FVec F S3 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S300000x3 .f32 := Host.absf main_arg2
  let main_cst_0 : FVec F S_ .f32 := constant S_ .f32 0x7F800000#32
  let main_v5 : FVec F S300000x3 .f32 := broadcastInDim S300000x3 ![] bcast_S_S300000x3 main_cst_0
  let main_v6 : IVec S300000x3 1 := cmpf .olt main_v4 main_v5
  let main_c_1 : IVec S_ 1 := constantI S_ 1 1#1
  let main_v7 : IVec S_ 1 := (fun x v => Host.reduce IntOp.andi x v reducesTo_S300000x3_S_d0_1 h_S_) main_v6 main_c_1
  let main_v8 : IVec S_ 1 := andi main_v3 main_v7
  let main_v9 : FVec F S515x256 .f32 := Host.absf main_arg3
  let main_cst_2 : FVec F S_ .f32 := constant S_ .f32 0x7F800000#32
  let main_v10 : FVec F S515x256 .f32 := broadcastInDim S515x256 ![] bcast_S_S515x256 main_cst_2
  let main_v11 : IVec S515x256 1 := cmpf .olt main_v9 main_v10
  let main_c_3 : IVec S_ 1 := constantI S_ 1 1#1
  let main_v12 : IVec S_ 1 := (fun x v => Host.reduce IntOp.andi x v reducesTo_S515x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_v13 main_v16
-- ==== Kernel.lean ====
abbrev S50000x256 : Shape := ⟨2, ![50000, 256]⟩
abbrev S2x300000 : Shape := ⟨2, ![2, 300000]⟩
abbrev S300000x3 : Shape := ⟨2, ![300000, 3]⟩
abbrev S515x256 : Shape := ⟨2, ![515, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S1 : Shape := ⟨1, ![1]⟩
abbrev S1x1 : Shape := ⟨2, ![1, 1]⟩
abbrev S300000x256 : Shape := ⟨2, ![300000, 256]⟩
abbrev S256x256 : Shape := ⟨2, ![256, 256]⟩
abbrev S3x256 : Shape := ⟨2, ![3, 256]⟩
abbrev S1x256 : Shape := ⟨2, ![1, 256]⟩
abbrev S1x128 : Shape := ⟨2, ![1, 128]⟩
abbrev S1x64 : Shape := ⟨2, ![1, 64]⟩
abbrev S1x3 : Shape := ⟨2, ![1, 3]⟩
abbrev S3000x256 : Shape := ⟨2, ![3000, 256]⟩
abbrev S3000x3 : Shape := ⟨2, ![3000, 3]⟩
abbrev S3000x128 : Shape := ⟨2, ![3000, 128]⟩
abbrev S3000x64 : Shape := ⟨2, ![3000, 64]⟩

abbrev nBuf : Space → Nat
  | .hbm => 69
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x300000, .i32⟩
  | .hbm, ⟨2, _⟩ => ⟨S300000x3, .f32⟩
  | .hbm, ⟨3, _⟩ => ⟨S515x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x3, .f32⟩
  | .hbm, ⟨10, _⟩ => ⟨S3, .f32⟩
  | .hbm, ⟨11, _⟩ => ⟨S1x300000, .i32⟩
  | .hbm, ⟨12, _⟩ => ⟨S300000, .i32⟩
  | .hbm, ⟨13, _⟩ => ⟨S1x300000, .i32⟩
  | .hbm, ⟨14, _⟩ => ⟨S300000, .i32⟩
  | .hbm, ⟨15, _⟩ => ⟨S_, .i32⟩
  | .hbm, ⟨16, _⟩ => ⟨S300000, .i32⟩
  | .hbm, ⟨17, _⟩ => ⟨S300000, .i1⟩
  | .hbm, ⟨18, _⟩ => ⟨S_, .i32⟩
  | .hbm, ⟨19, _⟩ => ⟨S300000, .i32⟩
  | .hbm, ⟨20, _⟩ => ⟨S300000, .i32⟩
  | .hbm, ⟨21, _⟩ => ⟨S300000, .i32⟩
  | .hbm, ⟨22, _⟩ => ⟨S300000x1, .i32⟩
  | .hbm, ⟨23, _⟩ => ⟨S1, .i32⟩
  | .hbm, ⟨24, _⟩ => ⟨S_, .i32⟩
  | .hbm, ⟨25, _⟩ => ⟨S300000x1, .i32⟩
  | .hbm, ⟨26, _⟩ => ⟨S300000x1, .i1⟩
  | .hbm, ⟨27, _⟩ => ⟨S1x1, .i32⟩
  | .hbm, ⟨28, _⟩ => ⟨S300000x1, .i32⟩
  | .hbm, ⟨29, _⟩ => ⟨S300000x1, .i1⟩
  | .hbm, ⟨30, _⟩ => ⟨S300000x1, .i1⟩
  | .hbm, ⟨31, _⟩ => ⟨S_, .i1⟩
  | .hbm, ⟨32, _⟩ => ⟨S300000, .i1⟩
  | .hbm, ⟨33, _⟩ => ⟨S300000x256, .f32⟩
  | .hbm, ⟨34, _⟩ => ⟨S300000x256, .i1⟩
  | .hbm, ⟨35, _⟩ => ⟨S_, .f32⟩
  | .hbm, ⟨36, _⟩ => ⟨S300000x256, .f32⟩
  | .hbm, ⟨37, _⟩ => ⟨S300000x256, .f32⟩
  | .hbm, ⟨38, _⟩ => ⟨S_, .i32⟩
  | .hbm, ⟨39, _⟩ => ⟨S300000, .i32⟩
  | .hbm, ⟨40, _⟩ => ⟨S300000, .i1⟩
  | .hbm, ⟨41, _⟩ => ⟨S_, .i32⟩
  | .hbm, ⟨42, _⟩ => ⟨S300000, .i32⟩
  | .hbm, ⟨43, _⟩ => ⟨S300000, .i32⟩
  | .hbm, ⟨44, _⟩ => ⟨S300000, .i32⟩
  | .hbm, ⟨45, _⟩ => ⟨S300000x1, .i32⟩
  | .hbm, ⟨46, _⟩ => ⟨S1, .i32⟩
  | .hbm, ⟨47, _⟩ => ⟨S_, .i32⟩
  | .hbm, ⟨48, _⟩ => ⟨S300000x1, .i32⟩
  | .hbm, ⟨49, _⟩ => ⟨S300000x1, .i1⟩
  | .hbm, ⟨50, _⟩ => ⟨S1x1, .i32⟩
  | .hbm, ⟨51, _⟩ => ⟨S300000x1, .i32⟩
  | .hbm, ⟨52, _⟩ => ⟨S300000x1, .i1⟩
  | .hbm, ⟨53, _⟩ => ⟨S300000x1, .i1⟩
  | .hbm, ⟨54, _⟩ => ⟨S_, .i1⟩
  | .hbm, ⟨55, _⟩ => ⟨S300000, .i1⟩
  | .hbm, ⟨56, _⟩ => ⟨S300000x256, .f32⟩
  | .hbm, ⟨57, _⟩ => ⟨S300000x256, .i1⟩
  | .hbm, ⟨58, _⟩ => ⟨S_, .f32⟩
  | .hbm, ⟨59, _⟩ => ⟨S300000x256, .f32⟩
  | .hbm, ⟨60, _⟩ => ⟨S300000x256, .f32⟩
  | .hbm, ⟨61, _⟩ => ⟨S256x256, .f32⟩
  | .hbm, ⟨62, _⟩ => ⟨S256x256, .f32⟩
  | .hbm, ⟨63, _⟩ => ⟨S3x256, .f32⟩
  | .hbm, ⟨64, _⟩ => ⟨S1x256, .f32⟩
  | .hbm, ⟨65, _⟩ => ⟨S1x128, .f32⟩
  | .hbm, ⟨66, _⟩ => ⟨S1x64, .f32⟩
  | .hbm, ⟨67, _⟩ => ⟨S1x3, .f32⟩
  | .hbm, ⟨68, _⟩ => ⟨S300000x3, .f32⟩
  | .local _ .vmem, ⟨0, _⟩ => ⟨S3000x256, .f32⟩
  | .local _ .vmem, ⟨1, _⟩ => ⟨S3000x256, .f32⟩
  | .local _ .vmem, ⟨2, _⟩ => ⟨S3000x256, .f32⟩
  | .local _ .vmem, ⟨3, _⟩ => ⟨S3000x256, .f32⟩
  | .local _ .vmem, ⟨4, _⟩ => ⟨S3000x3, .f32⟩
  | .local _ .vmem, ⟨5, _⟩ => ⟨S3000x3, .f32⟩
  | .local _ .vmem, ⟨6, _⟩ => ⟨S256x256, .f32⟩
  | .local _ .vmem, ⟨7, _⟩ => ⟨S256x256, .f32⟩
  | .local _ .vmem, ⟨8, _⟩ => ⟨S3x256, .f32⟩
  | .local _ .vmem, ⟨9, _⟩ => ⟨S1x256, .f32⟩
  | .local _ .vmem, ⟨10, _⟩ => ⟨S256x128, .f32⟩
  | .local _ .vmem, ⟨11, _⟩ => ⟨S1x128, .f32⟩
  | .local _ .vmem, ⟨12, _⟩ => ⟨S128x64, .f32⟩
  | .local _ .vmem, ⟨13, _⟩ => ⟨S1x64, .f32⟩
  | .local _ .vmem, ⟨14, _⟩ => ⟨S64x3, .f32⟩
  | .local _ .vmem, ⟨15, _⟩ => ⟨S1x3, .f32⟩
  | .local _ .vmem, ⟨16, _⟩ => ⟨S3000x3, .f32⟩
  | .local _ .vmem, ⟨17, _⟩ => ⟨S3000x3, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S3000x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S300000_d1 : S300000x1.ReducesTo [1] S300000
  h_S_ : 0 < S_.numel
  bcast_S300000_S300000x256_0 : S300000.BroadcastsInDim S300000x256 (![0] : Fin 1 → Fin S300000x256.rank)
  bcast_S_S300000x256 : S_.BroadcastsInDim S300000x256 (![] : Fin 0 → Fin S300000x256.rank)
  slices_S515x256_S256x256_0_0 : S515x256.Slices ![0, 0] S256x256
  slices_S515x256_S256x256_256_0 : S515x256.Slices ![256, 0] S256x256
  slices_S515x256_S3x256_512_0 : S515x256.Slices ![512, 0] S3x256
  shapeCasts_S256_S1x256 : S256.ShapeCasts S1x256
  shapeCasts_S128_S1x128 : S128.ShapeCasts S1x128
  shapeCasts_S64_S1x64 : S64.ShapeCasts S1x64
  shapeCasts_S3_S1x3 : S3.ShapeCasts S1x3
  inb_S3000x256_S3000x256_0_0 : ∀ a, (![0, 0] : Fin 2 → Nat) a + S3000x256.size a ≤ S3000x256.size a
  h_S3000x256 : 0 < S3000x256.numel
  shapeCasts_S3000x256_S3000x256 : S3000x256.ShapeCasts S3000x256
  bitsLt_bf16_f32 : FTy.bits .bf16 < FTy.bits .f32
  inb_S3000x3_S3000x3_0_0 : ∀ a, (![0, 0] : Fin 2 → Nat) a + S3000x3.size a ≤ S3000x3.size a
  h_S3000x3 : 0 < S3000x3.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3000x256 : S1x256.Broadcasts S3000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3000x128 : S1x128.Broadcasts S3000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3000x64 : S1x64.Broadcasts S3000x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S3000x3 : S1x3.Broadcasts S3000x3
  gather_S50000x256_S300000x1_S300000x256_1_0_n_n_0_1_1256_wf : GatherDims.WF S50000x256 S300000x1 S300000x256 [1] [0] [] [0] [] 1 ![1, 256]
  dot_S3000x256_S256x256_S3000x256_1_0_0_1_n_n_wf : DotDims.WF S3000x256 S256x256 S3000x256 [1] [0] [0] [1] [] []
  dot_S3000x3_S3x256_S3000x256_1_0_0_1_n_n_wf : DotDims.WF S3000x3 S3x256 S3000x256 [1] [0] [0] [1] [] []
  dot_S3000x256_S256x128_S3000x128_1_0_0_1_n_n_wf : DotDims.WF S3000x256 S256x128 S3000x128 [1] [0] [0] [1] [] []
  dot_S3000x128_S128x64_S3000x64_1_0_0_1_n_n_wf : DotDims.WF S3000x128 S128x64 S3000x64 [1] [0] [0] [1] [] []
  dot_S3000x64_S64x3_S3000x3_1_0_0_1_n_n_wf : DotDims.WF S3000x64 S64x3 S3000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x256.size a ≤ S300000x256.size a
  hwx0_0 : ∀ i : grid0.Coords, EltTy.bits .f32 = 32 ∨ (Rect.block (s := S300000x256) S3000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x256.size a ≤ S300000x256.size a
  hwx0_1 : ∀ i : grid0.Coords, EltTy.bits .f32 = 32 ∨ (Rect.block (s := S300000x256) S3000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x3.size a ≤ S300000x3.size a
  hwx0_2 : ∀ i : grid0.Coords, EltTy.bits .f32 = 32 ∨ (Rect.block (s := S300000x3) S3000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x256.size a ≤ S3x256.size a
  hwx0_5 : ∀ i : grid0.Coords, EltTy.bits .f32 = 32 ∨ (Rect.block (s := S3x256) S3x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x3.size a ≤ S64x3.size a
  hwx0_11 : ∀ i : grid0.Coords, EltTy.bits .f32 = 32 ∨ (Rect.block (s := S64x3) S64x3.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x3.size a ≤ S1x3.size a
  hwx0_12 : ∀ i : grid0.Coords, EltTy.bits .f32 = 32 ∨ (Rect.block (s := S1x3) S1x3.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S3000x3.size a ≤ S300000x3.size a
  hwx0_13 : ∀ i : grid0.Coords, EltTy.bits .f32 = 32 ∨ (Rect.block (s := S300000x3) S3000x3.size (cc0_transform_13 i) (hinb0_13 i)).WholeWords (EltTy.packing .f32)

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf
def dot_S3000x3_S3x256_S3000x256_1_0_0_1_n_n : DotDims S3000x3 S3x256 S3000x256 where
  lhsContracting := [1]
  rhsContracting := [0]
  lhsNonContracting := [0]
  rhsNonContracting := [1]
  lhsBatch := []
  rhsBatch := []
  wf := dot_S3000x3_S3x256_S3000x256_1_0_0_1_n_n_wf
def dot_S3000x256_S256x128_S3000x128_1_0_0_1_n_n : DotDims S3000x256 S256x128 S3000x128 where
  lhsContracting := [1]
  rhsContracting := [0]
  lhsNonContracting := [0]
  rhsNonContracting := [1]
  lhsBatch := []
  rhsBatch := []
  wf := dot_S3000x256_S256x128_S3000x128_1_0_0_1_n_n_wf
def dot_S3000x128_S128x64_S3000x64_1_0_0_1_n_n : DotDims S3000x128 S128x64 S3000x64 where
  lhsContracting := [1]
  rhsContracting := [0]
  lhsNonContracting := [0]
  rhsNonContracting := [1]
  lhsBatch := []
  rhsBatch := []
  wf := dot_S3000x128_S128x64_S3000x64_1_0_0_1_n_n_wf
def dot_S3000x64_S64x3_S3000x3_1_0_0_1_n_n : DotDims S3000x64 S64x3 S3000x3 where
  lhsContracting := [1]
  rhsContracting := [0]
  lhsNonContracting := [0]
  rhsNonContracting := [1]
  lhsBatch := []
  rhsBatch := []
  wf := dot_S3000x64_S64x3_S3000x3_1_0_0_1_n_n_wf

abbrev win0_0 : Pipeline.Window sig grid0 :=
  Pipeline.Window.ofSpec (Memref.whole main_v4) S3000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S3x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S64x3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x3.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S3000x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x300000 : Shape := ⟨2, ![2, 300000]⟩
abbrev S300000x3 : Shape := ⟨2, ![300000, 3]⟩
abbrev S515x256 : Shape := ⟨2, ![515, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S300000x515 : Shape := ⟨2, ![300000, 515]⟩
abbrev S1x256 : Shape := ⟨2, ![1, 256]⟩
abbrev S300000x128 : Shape := ⟨2, ![300000, 128]⟩
abbrev S1x128 : Shape := ⟨2, ![1, 128]⟩
abbrev S300000x64 : Shape := ⟨2, ![300000, 64]⟩
abbrev S1x64 : Shape := ⟨2, ![1, 64]⟩
abbrev S1x3 : Shape := ⟨2, ![1, 3]⟩

abbrev nBuf : Space → Nat
  | .hbm => 56
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x300000, .i32⟩
  | .hbm, ⟨2, _⟩ => ⟨S300000x3, .f32⟩
  | .hbm, ⟨3, _⟩ => ⟨S515x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x3, .f32⟩
  | .hbm, ⟨10, _⟩ => ⟨S3, .f32⟩
  | .hbm, ⟨11, _⟩ => ⟨S1x300000, .i32⟩
  | .hbm, ⟨12, _⟩ => ⟨S300000, .i32⟩
  | .hbm, ⟨13, _⟩ => ⟨S_, .i32⟩
  | .hbm, ⟨14, _⟩ => ⟨S300000, .i32⟩
  | .hbm, ⟨15, _⟩ => ⟨S300000, .i1⟩
  | .hbm, ⟨16, _⟩ => ⟨S_, .i32⟩
  | .hbm, ⟨17, _⟩ => ⟨S300000, .i32⟩
  | .hbm, ⟨18, _⟩ => ⟨S300000, .i32⟩
  | .hbm, ⟨19, _⟩ => ⟨S300000, .i32⟩
  | .hbm, ⟨20, _⟩ => ⟨S300000x1, .i32⟩
  | .hbm, ⟨21, _⟩ => ⟨S300000x256, .f32⟩
  | .hbm, ⟨22, _⟩ => ⟨S1x300000, .i32⟩
  | .hbm, ⟨23, _⟩ => ⟨S300000, .i32⟩
  | .hbm, ⟨24, _⟩ => ⟨S_, .i32⟩
  | .hbm, ⟨25, _⟩ => ⟨S300000, .i32⟩
  | .hbm, ⟨26, _⟩ => ⟨S300000, .i1⟩
  | .hbm, ⟨27, _⟩ => ⟨S_, .i32⟩
  | .hbm, ⟨28, _⟩ => ⟨S300000, .i32⟩
  | .hbm, ⟨29, _⟩ => ⟨S300000, .i32⟩
  | .hbm, ⟨30, _⟩ => ⟨S300000, .i32⟩
  | .hbm, ⟨31, _⟩ => ⟨S300000x1, .i32⟩
  | .hbm, ⟨32, _⟩ => ⟨S300000x256, .f32⟩
  | .hbm, ⟨33, _⟩ => ⟨S300000x515, .f32⟩
  | .hbm, ⟨34, _⟩ => ⟨S300000x256, .f32⟩
  | .hbm, ⟨35, _⟩ => ⟨S1x256, .f32⟩
  | .hbm, ⟨36, _⟩ => ⟨S300000x256, .f32⟩
  | .hbm, ⟨37, _⟩ => ⟨S300000x256, .f32⟩
  | .hbm, ⟨38, _⟩ => ⟨S_, .f32⟩
  | .hbm, ⟨39, _⟩ => ⟨S300000x256, .f32⟩
  | .hbm, ⟨40, _⟩ => ⟨S300000x256, .f32⟩
  | .hbm, ⟨41, _⟩ => ⟨S300000x128, .f32⟩
  | .hbm, ⟨42, _⟩ => ⟨S1x128, .f32⟩
  | .hbm, ⟨43, _⟩ => ⟨S300000x128, .f32⟩
  | .hbm, ⟨44, _⟩ => ⟨S300000x128, .f32⟩
  | .hbm, ⟨45, _⟩ => ⟨S300000x64, .f32⟩
  | .hbm, ⟨46, _⟩ => ⟨S1x64, .f32⟩
  | .hbm, ⟨47, _⟩ => ⟨S300000x64, .f32⟩
  | .hbm, ⟨48, _⟩ => ⟨S300000x64, .f32⟩
  | .hbm, ⟨49, _⟩ => ⟨S_, .f32⟩
  | .hbm, ⟨50, _⟩ => ⟨S300000x64, .f32⟩
  | .hbm, ⟨51, _⟩ => ⟨S300000x64, .f32⟩
  | .hbm, ⟨52, _⟩ => ⟨S300000x3, .f32⟩
  | .hbm, ⟨53, _⟩ => ⟨S1x3, .f32⟩
  | .hbm, ⟨54, _⟩ => ⟨S300000x3, .f32⟩
  | .hbm, ⟨55, _⟩ => ⟨S300000x3, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_cst : Ref sig .tc := ⟨.hbm, 49, rfl⟩
abbrev main_call1_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  concatenates_S300000x256_S300000x256_S300000x3_S300000x515_d1 : Shape.Concatenates [S300000x256, S300000x256, S300000x3] S300000x515 1
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  bcast_S128_S1x128_1 : S128.BroadcastsInDim S1x128 (![1] : Fin 1 → Fin S1x128.rank)
  bcast_S1x128_S300000x128_0_1 : S1x128.BroadcastsInDim S300000x128 (![0, 1] : Fin 2 → Fin S300000x128.rank)
  bcast_S64_S1x64_1 : S64.BroadcastsInDim S1x64 (![1] : Fin 1 → Fin S1x64.rank)
  bcast_S1x64_S300000x64_0_1 : S1x64.BroadcastsInDim S300000x64 (![0, 1] : Fin 2 → Fin S300000x64.rank)
  bcast_S_S300000x64 : S_.BroadcastsInDim S300000x64 (![] : Fin 0 → Fin S300000x64.rank)
  bcast_S3_S1x3_1 : S3.BroadcastsInDim S1x3 (![1] : Fin 1 → Fin S1x3.rank)
  bcast_S1x3_S300000x3_0_1 : S1x3.BroadcastsInDim S300000x3 (![0, 1] : Fin 2 → Fin S300000x3.rank)
  gather_S50000x256_S300000x1_S300000x256_1_0_n_n_0_1_1256_wf : GatherDims.WF S50000x256 S300000x1 S300000x256 [1] [0] [] [0] [] 1 ![1, 256]
  dot_S300000x515_S515x256_S300000x256_1_0_0_1_n_n_wf : DotDims.WF S300000x515 S515x256 S300000x256 [1] [0] [0] [1] [] []
  dot_S300000x256_S256x128_S300000x128_1_0_0_1_n_n_wf : DotDims.WF S300000x256 S256x128 S300000x128 [1] [0] [0] [1] [] []
  dot_S300000x128_S128x64_S300000x64_1_0_0_1_n_n_wf : DotDims.WF S300000x128 S128x64 S300000x64 [1] [0] [0] [1] [] []
  dot_S300000x64_S64x3_S300000x3_1_0_0_1_n_n_wf : DotDims.WF S300000x64 S64x3 S300000x3 [1] [0] [0] [1] [] []

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def dot_S300000x515_S515x256_S300000x256_1_0_0_1_n_n : DotDims S300000x515 S515x256 S300000x256 where
  lhsContracting := [1]
  rhsContracting := [0]
  lhsNonContracting := [0]
  rhsNonContracting := [1]
  lhsBatch := []
  rhsBatch := []
  wf := dot_S300000x515_S515x256_S300000x256_1_0_0_1_n_n_wf
def dot_S300000x256_S256x128_S300000x128_1_0_0_1_n_n : DotDims S300000x256 S256x128 S300000x128 where
  lhsContracting := [1]
  rhsContracting := [0]
  lhsNonContracting := [0]
  rhsNonContracting := [1]
  lhsBatch := []
  rhsBatch := []
  wf := dot_S300000x256_S256x128_S300000x128_1_0_0_1_n_n_wf
def dot_S300000x128_S128x64_S300000x64_1_0_0_1_n_n : DotDims S300000x128 S128x64 S300000x64 where
  lhsContracting := [1]
  rhsContracting := [0]
  lhsNonContracting := [0]
  rhsNonContracting := [1]
  lhsBatch := []
  rhsBatch := []
  wf := dot_S300000x128_S128x64_S300000x64_1_0_0_1_n_n_wf
def dot_S300000x64_S64x3_S300000x3_1_0_0_1_n_n : DotDims S300000x64 S64x3 S300000x3 where
  lhsContracting := [1]
  rhsContracting := [0]
  lhsNonContracting := [0]
  rhsNonContracting := [1]
  lhsBatch := []
  rhsBatch := []
  wf := dot_S300000x64_S64x3_S300000x3_1_0_0_1_n_n_wf

class Facts : Prop extends Facts₀ where

variable [Facts]
-- ==== Proof.LibDense.lean ====
/-
  Dense layers at the ideal values, read entry by entry.

  An affine layer sends an n × k array x, a k × m array w and a row of m biases β to the n × m array whose entry (a, c) is
  ∑ j, x(a, j) · w(j, c) + β(c); a rectifier takes the maximum with 0 entry by entry. On the extended reals both are
  what a kernel's matrix product into a zero accumulator plus a broadcast one-row bias computes, and what a host
  dot_general plus a twice-broadcast bias vector computes (the sums are over the contracted coordinate; neither spelling has
  another term). Three arrays laid side by side along the columns and contracted against one weight array give the sum of
  the three partial products against the weight array's three row bands: a finite sum over k₁ + k₂ + k₃ terms split at k₁
  and k₁ + k₂, which needs only that addition is associative and commutative, so it holds at the infinities too.
  Entry (a, c) of a layer depends on row a of its input only, so a network of such layers applied to a block of rows
  agrees with the network applied to the whole array on the rows of the block.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

open scoped BigOperators

namespace Cert.LibDense

open Idealize.ShloMosaic Idealize.ShloMosaic.ValueIdx

/-- An n × m array of extended reals. -/
abbrev Mat (n m : Nat) : Type := (⟨2, ![n, m]⟩ : Shape).Idx → EReal

section Layers
variable {n k m : Nat}

/-- The affine layer: entry (a, c) is ∑ j, x(a, j) · w(j, c) + β(c). -/
def aff (x : Mat n k) (w : Mat k m) (β : Fin m → EReal) : Mat n m :=
  fun i => ∑ j : Fin k, x (ix2 (i 0) j) * w (ix2 j (i 1)) + β (i 1)

theorem aff_apply (x : Mat n k) (w : Mat k m) (β : Fin m → EReal) (a : Fin n) (c : Fin m) :
    aff x w β (ix2 a c) = ∑ j : Fin k, x (ix2 a j) * w (ix2 j c) + β c := rfl

/-- The rectifier: the maximum with 0, entry by entry. -/
def relu (y : Mat n m) : Mat n m := fun i => max (y i) 0

theorem relu_apply (y : Mat n m) (i : (⟨2, ![n, m]⟩ : Shape).Idx) : relu y i = max (y i) 0 := rfl

/-- A kernel's layer: the matrix product accumulated into a zero splat, plus a one-row bias broadcast down the rows. -/
theorem kernel_layer {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (brow : FVec Ideal ⟨2, ![1, m]⟩ .f32)
    (hb : (⟨2, ![1, m]⟩ : Shape).Broadcasts ⟨2, ![n, m]⟩) :
    addf (matmul d none x w (constant ⟨2, ![n, m]⟩ .f32 0x00000000#32)) (broadcastTo ⟨2, ![n, m]⟩ brow hb)
      = aff x w (fun c => brow (ix2 (0 : Fin 1) c)) := by
  subst hd
  funext i
  obtain ⟨a, c, rfl⟩ : ∃ (a : Fin n) (c : Fin m), i = ix2 a c := ⟨i 0, i 1, eq_ix2 i⟩
  rw [addf_apply, matmul_zero_eq_dotGeneral, StackMember.dotGeneral_plain_apply, broadcastTo_1b_ab_apply]
  rfl

/-- A kernel's matrix product into a zero splat, with no bias: the sums alone. -/
theorem kernel_product {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (a : Fin n) (c : Fin m) :
    matmul d none x w (constant ⟨2, ![n, m]⟩ .f32 0x00000000#32) (ix2 a c) = ∑ j : Fin k, x (ix2 a j) * w (ix2 j c) := by
  subst hd
  rw [matmul_zero_eq_dotGeneral, StackMember.dotGeneral_plain_apply]

/-- A vector laid out as one row reads, at (0, c), the vector at c. -/
theorem row_of_vector {α : Type} (b : (⟨1, ![m]⟩ : Shape).Idx → α)
    (h1 : (⟨1, ![m]⟩ : Shape).BroadcastsInDim ⟨2, ![1, m]⟩ ![1]) (c : Fin m) :
    broadcastInDim ⟨2, ![1, m]⟩ ![1] h1 b (ix2 (0 : Fin 1) c) = b (ix1 c) := by
  refine broadcastInDim_apply ![1] h1 b (ix2 (0 : Fin 1) c) (ix1 c) ?_
  intro a
  match a with
  | ⟨0, _⟩ =>
    show c.val = if m = 1 then 0 else c.val
    split
    · have := c.isLt; omega
    · rfl

/-- The host's layer: the dot_general plus the bias vector laid out as a row and broadcast down the rows. -/
theorem host_layer {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (b : FVec Ideal ⟨1, ![m]⟩ .f32)
    (h1 : (⟨1, ![m]⟩ : Shape).BroadcastsInDim ⟨2, ![1, m]⟩ ![1])
    (h2 : (⟨2, ![1, m]⟩ : Shape).BroadcastsInDim ⟨2, ![n, m]⟩ ![0, 1]) :
    addf (Host.dotGeneral d none x w) (broadcastInDim ⟨2, ![n, m]⟩ ![0, 1] h2 (broadcastInDim ⟨2, ![1, m]⟩ ![1] h1 b))
      = aff x w (fun c => b (ix1 c)) := by
  subst hd
  funext i
  obtain ⟨a, c, rfl⟩ : ∃ (a : Fin n) (c : Fin m), i = ix2 a c := ⟨i 0, i 1, eq_ix2 i⟩
  rw [addf_apply, StackMember.dotGeneral_plain_apply, broadcastInDim_oneRow_apply, row_of_vector]
  rfl

/-- A kernel's rectifier: the maximum with a splat of the zero word. -/
theorem kernel_relu (y : FVec Ideal ⟨2, ![n, m]⟩ .f32) :
    maximumf y (broadcast ⟨2, ![n, m]⟩ (Scalar.ofBits (F := Ideal) .f32 0x00000000#32)) = relu y := by
  funext i
  show max (y i) (Ideal.ofBits .f32 0x00000000#32) = max (y i) 0
  rw [Ideal.ofBits_zero_f32]

/-- The host's rectifier: the maximum with the zero constant broadcast to the array's shape. -/
theorem host_relu (y : FVec Ideal ⟨2, ![n, m]⟩ .f32)
    (h : (⟨0, ![]⟩ : Shape).BroadcastsInDim ⟨2, ![n, m]⟩ (![] : Fin 0 → Fin 2)) :
    maximumf y (broadcastInDim ⟨2, ![n, m]⟩ ![] h (constant (F := Ideal) ⟨0, ![]⟩ .f32 0x00000000#32)) = relu y := by
  funext i
  rw [maximumf_apply, broadcastInDim_apply ![] h _ i ix0 (fun a => a.elim0), constant_apply, Ideal.ofBits_zero_f32]
  rfl

/-- At the ideal values a narrowing change of format is the identity on the whole array. -/
theorem truncf_id {s : Shape} {φ ψ : FTy} (a : FVec Ideal s φ) (h : ψ.bits < φ.bits) :
    (truncf ψ a h : s.Idx → EReal) = a := rfl

end Layers

/-! ## Three arrays side by side, contracted against one weight array -/

section Split
variable {n k₁ k₂ k₃ K m : Nat}

/-- Three arrays of k₁, k₂ and k₃ columns laid side by side. -/
def cat3 (hK : k₁ + k₂ + k₃ = K) (x₁ : Mat n k₁) (x₂ : Mat n k₂) (x₃ : Mat n k₃) : Mat n K := fun i =>
  if h₁ : (i 1).val < k₁ then x₁ (ix2 (i 0) ⟨(i 1).val, h₁⟩)
  else if h₂ : (i 1).val < k₁ + k₂ then x₂ (ix2 (i 0) ⟨(i 1).val - k₁, by omega⟩)
  else x₃ (ix2 (i 0) ⟨(i 1).val - (k₁ + k₂), by have := idx2_lt1 i; omega⟩)

theorem cat3_apply (hK : k₁ + k₂ + k₃ = K) (x₁ : Mat n k₁) (x₂ : Mat n k₂) (x₃ : Mat n k₃) (a : Fin n) (j : Fin K) :
    cat3 hK x₁ x₂ x₃ (ix2 a j)
      = if h₁ : j.val < k₁ then x₁ (ix2 a ⟨j.val, h₁⟩)
        else if h₂ : j.val < k₁ + k₂ then x₂ (ix2 a ⟨j.val - k₁, by omega⟩)
        else x₃ (ix2 a ⟨j.val - (k₁ + k₂), by have := j.isLt; omega⟩) := rfl

/-- Rows o, o + 1, … of a weight array, as many as the band has. -/
def band {k : Nat} (o : Nat) (ho : o + k ≤ K) (w : Mat K m) : Mat k m :=
  fun i => w (ix2 ⟨o + (i 0).val, by have := idx2_lt0 i; omega⟩ (i 1))

/-- The first layer in its three-product form: the partial products against the three row bands, then the bias. -/
def aff3 (x₁ : Mat n k₁) (x₂ : Mat n k₂) (x₃ : Mat n k₃) (w₁ : Mat k₁ m) (w₂ : Mat k₂ m) (w₃ : Mat k₃ m)
    (β : Fin m → EReal) : Mat n m :=
  fun i => (∑ j : Fin k₁, x₁ (ix2 (i 0) j) * w₁ (ix2 j (i 1)) + ∑ j : Fin k₂, x₂ (ix2 (i 0) j) * w₂ (ix2 j (i 1)))
    + ∑ j : Fin k₃, x₃ (ix2 (i 0) j) * w₃ (ix2 j (i 1)) + β (i 1)

theorem aff3_apply (x₁ : Mat n k₁) (x₂ : Mat n k₂) (x₃ : Mat n k₃) (w₁ : Mat k₁ m) (w₂ : Mat k₂ m) (w₃ : Mat k₃ m)
    (β : Fin m → EReal) (a : Fin n) (c : Fin m) :
    aff3 x₁ x₂ x₃ w₁ w₂ w₃ β (ix2 a c)
      = (∑ j : Fin k₁, x₁ (ix2 a j) * w₁ (ix2 j c) + ∑ j : Fin k₂, x₂ (ix2 a j) * w₂ (ix2 j c))
        + ∑ j : Fin k₃, x₃ (ix2 a j) * w₃ (ix2 j c) + β c := rfl

/-- A kernel's first layer written as three matrix products into zero splats, added, plus a one-row bias broadcast down
    the rows: the three-product form. -/
theorem kernel_layer3 {φ₁ φ₂ φ₃ ψ₁ ψ₂ ψ₃ : FTy}
    (d₁ : DotDims ⟨2, ![n, k₁]⟩ ⟨2, ![k₁, m]⟩ ⟨2, ![n, m]⟩) (hd₁ : d₁ = DotDims.plain n k₁ m)
    (d₂ : DotDims ⟨2, ![n, k₂]⟩ ⟨2, ![k₂, m]⟩ ⟨2, ![n, m]⟩) (hd₂ : d₂ = DotDims.plain n k₂ m)
    (d₃ : DotDims ⟨2, ![n, k₃]⟩ ⟨2, ![k₃, m]⟩ ⟨2, ![n, m]⟩) (hd₃ : d₃ = DotDims.plain n k₃ m)
    (x₁ : FVec Ideal ⟨2, ![n, k₁]⟩ φ₁) (w₁ : FVec Ideal ⟨2, ![k₁, m]⟩ ψ₁)
    (x₂ : FVec Ideal ⟨2, ![n, k₂]⟩ φ₂) (w₂ : FVec Ideal ⟨2, ![k₂, m]⟩ ψ₂)
    (x₃ : FVec Ideal ⟨2, ![n, k₃]⟩ φ₃) (w₃ : FVec Ideal ⟨2, ![k₃, m]⟩ ψ₃)
    (brow : FVec Ideal ⟨2, ![1, m]⟩ .f32) (hb : (⟨2, ![1, m]⟩ : Shape).Broadcasts ⟨2, ![n, m]⟩) :
    addf (addf (addf (matmul d₁ none x₁ w₁ (constant ⟨2, ![n, m]⟩ .f32 0x00000000#32))
          (matmul d₂ none x₂ w₂ (constant ⟨2, ![n, m]⟩ .f32 0x00000000#32)))
        (matmul d₃ none x₃ w₃ (constant ⟨2, ![n, m]⟩ .f32 0x00000000#32)))
      (broadcastTo ⟨2, ![n, m]⟩ brow hb)
      = aff3 x₁ x₂ x₃ w₁ w₂ w₃ (fun c => brow (ix2 (0 : Fin 1) c)) := by
  funext i
  obtain ⟨a, c, rfl⟩ : ∃ (a : Fin n) (c : Fin m), i = ix2 a c := ⟨i 0, i 1, eq_ix2 i⟩
  rw [addf_apply, addf_apply, addf_apply, kernel_product d₁ hd₁, kernel_product d₂ hd₂, kernel_product d₃ hd₃,
    broadcastTo_1b_ab_apply]
  rfl

/-- THE LAW: contracting the side-by-side array against a weight array is the sum of the three partial products against
    its row bands. A finite sum split in three; no cancellation, so it holds at the infinities. -/
theorem aff_cat3 (hK : k₁ + k₂ + k₃ = K) (x₁ : Mat n k₁) (x₂ : Mat n k₂) (x₃ : Mat n k₃) (w : Mat K m)
    (β : Fin m → EReal) :
    aff (cat3 hK x₁ x₂ x₃) w β
      = aff3 x₁ x₂ x₃ (band 0 (by omega) w) (band k₁ (by omega) w) (band (k₁ + k₂) (by omega) w) β := by
  subst hK
  funext i
  obtain ⟨a, c, rfl⟩ : ∃ (a : Fin n) (c : Fin m), i = ix2 a c := ⟨i 0, i 1, eq_ix2 i⟩
  rw [aff_apply, aff3_apply, Fin.sum_univ_add, Fin.sum_univ_add]
  congr 1
  congr 1
  · congr 1
    · refine Finset.sum_congr rfl fun j _ => ?_
      have hj : (Fin.castAdd k₃ (Fin.castAdd k₂ j)).val < k₁ := j.isLt
      have e : cat3 rfl x₁ x₂ x₃ (ix2 a (Fin.castAdd k₃ (Fin.castAdd k₂ j))) = x₁ (ix2 a j) := by
        rw [cat3_apply, dif_pos hj]
        rfl
      rw [e]
      refine congrArg (x₁ (ix2 a j) * ·) (congrArg w ?_)
      funext ax
      match ax with
      | ⟨0, _⟩ => exact Fin.ext (by show j.val = 0 + j.val; omega)
      | ⟨1, _⟩ => rfl
    · refine Finset.sum_congr rfl fun j _ => ?_
      have hv : (Fin.castAdd k₃ (Fin.natAdd k₁ j)).val = k₁ + j.val := rfl
      have hn : ¬ (Fin.castAdd k₃ (Fin.natAdd k₁ j)).val < k₁ := by rw [hv]; omega
      have hj : (Fin.castAdd k₃ (Fin.natAdd k₁ j)).val < k₁ + k₂ := by rw [hv]; have := j.isLt; omega
      have e : cat3 rfl x₁ x₂ x₃ (ix2 a (Fin.castAdd k₃ (Fin.natAdd k₁ j))) = x₂ (ix2 a j) := by
        rw [cat3_apply, dif_neg hn, dif_pos hj]
        refine congrArg x₂ ?_
        funext ax
        match ax with
        | ⟨0, _⟩ => rfl
        | ⟨1, _⟩ => exact Fin.ext (by show k₁ + j.val - k₁ = j.val; omega)
      rw [e]
      refine congrArg (x₂ (ix2 a j) * ·) (congrArg w ?_)
      funext ax
      match ax with
      | ⟨0, _⟩ => rfl
      | ⟨1, _⟩ => rfl
  · refine Finset.sum_congr rfl fun j _ => ?_
    have hv : (Fin.natAdd (k₁ + k₂) j).val = k₁ + k₂ + j.val := rfl
    have hn₁ : ¬ (Fin.natAdd (k₁ + k₂) j).val < k₁ := by rw [hv]; omega
    have hn₂ : ¬ (Fin.natAdd (k₁ + k₂) j).val < k₁ + k₂ := by rw [hv]; omega
    have e : cat3 rfl x₁ x₂ x₃ (ix2 a (Fin.natAdd (k₁ + k₂) j)) = x₃ (ix2 a j) := by
      rw [cat3_apply, dif_neg hn₁, dif_neg hn₂]
      refine congrArg x₃ ?_
      funext ax
      match ax with
      | ⟨0, _⟩ => rfl
      | ⟨1, _⟩ => exact Fin.ext (by show k₁ + k₂ + j.val - (k₁ + k₂) = j.val; omega)
    rw [e]
    refine congrArg (x₃ (ix2 a j) * ·) (congrArg w ?_)
    funext ax
    match ax with
    | ⟨0, _⟩ => rfl
    | ⟨1, _⟩ => rfl

end Split

/-! ## A layer's row depends on the same row of its input -/

section Rows
variable {n n' k m : Nat}

/-- Row p of x' is row r of x. -/
def RowEq (x' : Mat n' k) (x : Mat n k) (p : Fin n') (r : Fin n) : Prop := ∀ j : Fin k, x' (ix2 p j) = x (ix2 r j)

theorem RowEq.aff {x' : Mat n' k} {x : Mat n k} {p : Fin n'} {r : Fin n} (h : RowEq x' x p r) (w : Mat k m)
    (β : Fin m → EReal) : RowEq (aff x' w β) (aff x w β) p r := fun c => by
  rw [aff_apply, aff_apply]
  exact congrArg (· + β c) (Finset.sum_congr rfl fun j _ => by rw [h j])

theorem RowEq.relu {x' : Mat n' k} {x : Mat n k} {p : Fin n'} {r : Fin n} (h : RowEq x' x p r) :
    RowEq (relu x') (relu x) p r := fun c => by
  rw [relu_apply, relu_apply, h c]

theorem RowEq.aff3 {k₁ k₂ k₃ : Nat} {x₁' : Mat n' k₁} {x₁ : Mat n k₁} {x₂' : Mat n' k₂} {x₂ : Mat n k₂}
    {x₃' : Mat n' k₃} {x₃ : Mat n k₃} {p : Fin n'} {r : Fin n}
    (h₁ : RowEq x₁' x₁ p r) (h₂ : RowEq x₂' x₂ p r) (h₃ : RowEq x₃' x₃ p r)
    (w₁ : Mat k₁ m) (w₂ : Mat k₂ m) (w₃ : Mat k₃ m) (β : Fin m → EReal) :
    RowEq (aff3 x₁' x₂' x₃' w₁ w₂ w₃ β) (aff3 x₁ x₂ x₃ w₁ w₂ w₃ β) p r := fun c => by
  rw [aff3_apply, aff3_apply]
  have e₁ : ∑ j : Fin k₁, x₁' (ix2 p j) * w₁ (ix2 j c) = ∑ j : Fin k₁, x₁ (ix2 r j) * w₁ (ix2 j c) :=
    Finset.sum_congr rfl fun j _ => by rw [h₁ j]
  have e₂ : ∑ j : Fin k₂, x₂' (ix2 p j) * w₂ (ix2 j c) = ∑ j : Fin k₂, x₂ (ix2 r j) * w₂ (ix2 j c) :=
    Finset.sum_congr rfl fun j _ => by rw [h₂ j]
  have e₃ : ∑ j : Fin k₃, x₃' (ix2 p j) * w₃ (ix2 j c) = ∑ j : Fin k₃, x₃ (ix2 r j) * w₃ (ix2 j c) :=
    Finset.sum_congr rfl fun j _ => by rw [h₃ j]
  rw [e₁, e₂, e₃]

end Rows

end Cert.LibDense

end
-- ==== Proof.Net.lean ====
/-
  The edge classifier as one function of its inputs.

  Per edge e the classifier takes the two gathered node rows src(e, ·), dst(e, ·) (256 numbers each) and the edge's 3
  attributes, applies a first affine layer 515 → 256 to the three laid side by side and rectifies, a second affine layer
  256 → 128, a third 128 → 64 rectified, and a last one 64 → 3. It is written here twice: as the reference spells it — one
  contraction over the 515 concatenated columns — and as the kernel spells it — three partial products against the row
  bands 0–255, 256–511 and 512–514 of the first weight array, with the biases held as one-row arrays. The two are one
  function (the sum over 515 terms split at 256 and 512), and row e of the result depends on row e of src, dst and the
  attributes only, so the network applied to a block of rows agrees with the network applied to all rows.
-/
import proofs.«405570_j41429254537606_1_alg».proof.Proof.LibDense

noncomputable section

namespace Cert.Net

open Idealize.ShloMosaic Idealize.ShloMosaic.ValueIdx Cert.LibDense

/-- A vector of m extended reals. -/
abbrev Vec1 (m : Nat) : Type := (⟨1, ![m]⟩ : Shape).Idx → EReal

variable {n n' : Nat}

/-- The classifier in the kernel's form, over n rows: three partial products for the first layer, biases as one-row
    arrays. -/
def blockForm (x₀ x₁ : Mat n 256) (x₂ : Mat n 3) (w1s w1d : Mat 256 256) (w1e : Mat 3 256) (b1 : Mat 1 256)
    (w2 : Mat 256 128) (b2 : Mat 1 128) (w3 : Mat 128 64) (b3 : Mat 1 64) (w4 : Mat 64 3) (b4 : Mat 1 3) : Mat n 3 :=
  aff (relu (aff (aff (relu (aff3 x₀ x₁ x₂ w1s w1d w1e (fun c => b1 (ix2 (0 : Fin 1) c)))) w2
    (fun c => b2 (ix2 (0 : Fin 1) c))) w3 (fun c => b3 (ix2 (0 : Fin 1) c)))) w4 (fun c => b4 (ix2 (0 : Fin 1) c))

/-- The classifier in the reference's form, over n rows: one contraction over the 515 concatenated columns, biases as
    vectors. -/
def edgeLogits (src dst : Mat n 256) (ea : Mat n 3) (W1 : Mat 515 256) (b1 : Vec1 256) (W2 : Mat 256 128) (b2 : Vec1 128)
    (W3 : Mat 128 64) (b3 : Vec1 64) (W4 : Mat 64 3) (b4 : Vec1 3) : Mat n 3 :=
  aff (relu (aff (aff (relu (aff (cat3 (K := 515) rfl src dst ea) W1 (fun c => b1 (ix1 c)))) W2 (fun c => b2 (ix1 c))) W3
    (fun c => b3 (ix1 c)))) W4 (fun c => b4 (ix1 c))

/-- The two forms are one function when the kernel's three first-layer weight arrays are the row bands of the
    reference's and its one-row biases hold the reference's bias vectors. -/
theorem blockForm_eq_edgeLogits (src dst : Mat n 256) (ea : Mat n 3) (W1 : Mat 515 256) (b1 : Vec1 256) (W2 : Mat 256 128)
    (b2 : Vec1 128) (W3 : Mat 128 64) (b3 : Vec1 64) (W4 : Mat 64 3) (b4 : Vec1 3)
    (w1s w1d : Mat 256 256) (w1e : Mat 3 256) (b1r : Mat 1 256) (b2r : Mat 1 128) (b3r : Mat 1 64) (b4r : Mat 1 3)
    (hs : w1s = band 0 (by omega) W1) (hd : w1d = band 256 (by omega) W1) (he : w1e = band 512 (by omega) W1)
    (h1 : ∀ c, b1r (ix2 (0 : Fin 1) c) = b1 (ix1 c)) (h2 : ∀ c, b2r (ix2 (0 : Fin 1) c) = b2 (ix1 c))
    (h3 : ∀ c, b3r (ix2 (0 : Fin 1) c) = b3 (ix1 c)) (h4 : ∀ c, b4r (ix2 (0 : Fin 1) c) = b4 (ix1 c)) :
    blockForm src dst ea w1s w1d w1e b1r W2 b2r W3 b3r W4 b4r = edgeLogits src dst ea W1 b1 W2 b2 W3 b3 W4 b4 := by
  unfold blockForm edgeLogits
  rw [aff_cat3 (K := 515) rfl src dst ea W1, hs, hd, he, funext h1, funext h2, funext h3, funext h4]

/-- Row p of the classifier over one family of rows is row r of the classifier over another when rows p and r of the
    three per-edge inputs agree. -/
theorem blockForm_rows {x₀' x₁' : Mat n' 256} {x₂' : Mat n' 3} {x₀ x₁ : Mat n 256} {x₂ : Mat n 3} {p : Fin n'} {r : Fin n}
    (h₀ : RowEq x₀' x₀ p r) (h₁ : RowEq x₁' x₁ p r) (h₂ : RowEq x₂' x₂ p r)
    (w1s w1d : Mat 256 256) (w1e : Mat 3 256) (b1 : Mat 1 256)
    (w2 : Mat 256 128) (b2 : Mat 1 128) (w3 : Mat 128 64) (b3 : Mat 1 64) (w4 : Mat 64 3) (b4 : Mat 1 3) (q : Fin 3) :
    blockForm x₀' x₁' x₂' w1s w1d w1e b1 w2 b2 w3 b3 w4 b4 (ix2 p q)
      = blockForm x₀ x₁ x₂ w1s w1d w1e b1 w2 b2 w3 b3 w4 b4 (ix2 r q) :=
  (((((RowEq.aff3 h₀ h₁ h₂ w1s w1d w1e _).relu).aff w2 _).aff w3 _).relu.aff w4 _) q

end Cert.Net

end
-- ==== Proof.Body.lean ====
/-
  What the kernel's body computes on one block of 3000 edges.

  The body loads the block's 3000 source rows, destination rows and attribute rows and the whole weight and bias arrays,
  and stores one 3000 × 3 array. Its arithmetic is three matrix products into zero accumulators added together, a one-row
  bias broadcast down the rows and a rectifier; a fourth product with bias; a fifth with bias and rectifier; a sixth with
  bias. The changes of float format around the products are the identity on extended reals and the same-shape casts are
  the identity on arrays, so the stored array is the classifier in its three-product form applied to the block.
-/
import proofs.«405570_j41429254537606_1_alg».proof.Proof.Gen.KernelIdeal.Skeleton
import proofs.«405570_j41429254537606_1_alg».proof.Proof.Net

noncomputable section

namespace Cert.Body

open Idealize.ShloMosaic Idealize.ShloMosaic.ValueIdx Cert.LibDense Cert.Net Cert.KernelIdeal Cert.KernelIdeal.Gen

/-- The first two layers: the three partial products with their bias, rectified, then the 256 → 128 layer. -/
theorem first_two (v0 v3 : Vec Ideal S3000x256 .f32) (v6 : Vec Ideal S3000x3 .f32) (v8 v11 : Vec Ideal S256x256 .f32)
    (v14 : Vec Ideal S3x256 .f32) (v22 : Vec Ideal S1x256 .f32) (v29 : Vec Ideal S256x128 .f32) (v32 : Vec Ideal S1x128 .f32) :
    k0_pay2 (F := Ideal) v0 v3 v6 v8 v11 v14 v22 v29 v32
      = aff (relu (aff3 v0 v3 v6 v8 v11 v14 (fun c => v22 (ix2 (0 : Fin 1) c)))) v29 (fun c => v32 (ix2 (0 : Fin 1) c)) := by
  unfold k0_pay2
  simp only [shapeCast_self, truncf_id]
  rw [kernel_layer dot_S3000x256_S256x128_S3000x128_1_0_0_1_n_n rfl, kernel_relu,
    kernel_layer3 dot_S3000x256_S256x256_S3000x256_1_0_0_1_n_n rfl dot_S3000x256_S256x256_S3000x256_1_0_0_1_n_n rfl
      dot_S3000x3_S3x256_S3000x256_1_0_0_1_n_n rfl]

/-- The last two layers: the 128 → 64 layer rectified, then the 64 → 3 layer. -/
theorem last_two (v35 : FVec Ideal S3000x128 .f32) (v37 : Vec Ideal S128x64 .f32) (v40 : Vec Ideal S1x64 .f32)
    (v47 : Vec Ideal S64x3 .f32) (v50 : Vec Ideal S1x3 .f32) :
    k0_pay1 (F := Ideal) v35 v37 v40 v47 v50
      = aff (relu (aff v35 v37 (fun c => v40 (ix2 (0 : Fin 1) c)))) v47 (fun c => v50 (ix2 (0 : Fin 1) c)) := by
  unfold k0_pay1
  simp only [shapeCast_self, truncf_id]
  rw [kernel_layer dot_S3000x64_S64x3_S3000x3_1_0_0_1_n_n rfl, kernel_relu,
    kernel_layer dot_S3000x128_S128x64_S3000x64_1_0_0_1_n_n rfl]

/-- The stored array is the classifier, in its three-product form, of the loaded blocks. -/
theorem stored (v0 v3 : Vec Ideal S3000x256 .f32) (v6 : Vec Ideal S3000x3 .f32) (v8 v11 : Vec Ideal S256x256 .f32)
    (v14 : Vec Ideal S3x256 .f32) (v22 : Vec Ideal S1x256 .f32) (v29 : Vec Ideal S256x128 .f32) (v32 : Vec Ideal S1x128 .f32)
    (v37 : Vec Ideal S128x64 .f32) (v40 : Vec Ideal S1x64 .f32) (v47 : Vec Ideal S64x3 .f32) (v50 : Vec Ideal S1x3 .f32) :
    k0_pay1 (F := Ideal) (k0_pay2 (F := Ideal) v0 v3 v6 v8 v11 v14 v22 v29 v32) v37 v40 v47 v50
      = blockForm (n := 3000) v0 v3 v6 v8 v11 v14 v22 v29 v32 v37 v40 v47 v50 := by
  rw [last_two, first_two]
  rfl

end Cert.Body

end
-- ==== Proof.Blocks.lean ====
/-
  From blocks to the array: what the kernel's result array holds after the run.

  The grid has 100 points. At point t the three per-edge input windows hold rows 3000·t … 3000·t + 2999 of their arrays
  and every weight and bias window holds its whole array; the body leaves, in the output window's block, the classifier
  of those blocks, and the block is written back to rows 3000·t … 3000·t + 2999 of the result. Row 3000·t + p of the
  classifier of the whole arrays depends on that row of the per-edge arrays only, so what point t writes back is block t
  of ONE array: the classifier, in its three-product form, of the arrays as the region finds them. The 100 blocks cover
  the result (row r lies in block r / 3000), so after the run the result array is that array.
-/
import proofs.«405570_j41429254537606_1_alg».proof.Proof.Gen.KernelIdeal.Value
import proofs.«405570_j41429254537606_1_alg».proof.Proof.Body

set_option maxRecDepth 16384

noncomputable section

namespace Cert.Blocks

open Cert.KernelIdeal Cert.KernelIdeal.Gen Idealize.ShloMosaic Idealize.ShloMosaic.TcCoe Idealize.SL.Sem
open Idealize.ShloMosaic.ValueIdx Cert.LibDense Cert.Net
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The body's result for the output window, over any blocks: the classifier of the blocks. -/
theorem out_eq (x0 x1 : Vec Ideal S3000x256 .f32) (x2 : Vec Ideal S3000x3 .f32) (x3 x4 : Vec Ideal S256x256 .f32)
    (x5 : Vec Ideal S3x256 .f32) (x6 : Vec Ideal S1x256 .f32) (x7 : Vec Ideal S256x128 .f32) (x8 : Vec Ideal S1x128 .f32)
    (x9 : Vec Ideal S128x64 .f32) (x10 : Vec Ideal S1x64 .f32) (x11 : Vec Ideal S64x3 .f32) (x12 : Vec Ideal S1x3 .f32) :
    out0_13 (F := Ideal) x0 x1 x2 x3 x4 x5 x6 x7 x8 x9 x10 x11 x12
      = blockForm (n := 3000) x0 x1 x2 x3 x4 x5 x6 x7 x8 x9 x10 x11 x12 := by
  unfold out0_13
  rw [View.canon_unit_zero origin]
  simp only [View.ld_unit_zero (S := S3000x256) origin, View.ld_unit_zero (S := S3000x3) origin,
    View.ld_unit_zero (S := S256x256) origin, View.ld_unit_zero (S := S3x256) origin, View.ld_unit_zero (S := S1x256) origin,
    View.ld_unit_zero (S := S256x128) origin, View.ld_unit_zero (S := S1x128) origin, View.ld_unit_zero (S := S128x64) origin,
    View.ld_unit_zero (S := S1x64) origin, View.ld_unit_zero (S := S64x3) origin, View.ld_unit_zero (S := S1x3) origin]
  exact Cert.Body.stored x0 x1 x2 x3 x4 x5 x6 x7 x8 x9 x10 x11 x12

/-- The printed index maps, decided over the 100 points: the per-edge windows and the output move one block of rows per
    point, the weight and bias windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0 :=
  (by decide +kernel : ∀ t : Fin grid0.N, _)

theorem idx_fixed : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

theorem point_lt (t : Fin cfg0.N) : t.val < 100 := lt_of_lt_of_eq t.isLt N_0

/-- The row of the arrays that row p of point t's blocks is. -/
def rowOf (t : Fin cfg0.N) (p : Fin 3000) : Fin 300000 := ⟨3000 * t.val + p.val, by have := point_lt t; omega⟩

/-! ## Each input window's block, read off its array -/

theorem blk0 (c : Dev nD) (t : Fin cfg0.N) (p : Fin 3000) :
    RowEq (n' := 3000) (n := 300000) (iblk m c 0 t) (V m c main_v4) p (rowOf t p) := fun j => by
  obtain ⟨e0, e1, -⟩ := idx_facts t
  show V m c main_v4 (((cfg0.win 0).blk t).view.emb (ix2 p j)) = V m c main_v4 (ix2 (rowOf t p) j)
  refine congrArg (V m c main_v4) (funext fun a => Fin.ext ?_)
  match a with
  | ⟨0, _⟩ => show win0_0.index t (0 : Fin 2) * 3000 + 1 * p.val = 3000 * t.val + p.val; omega
  | ⟨1, _⟩ => show win0_0.index t (1 : Fin 2) * 256 + 1 * j.val = j.val; omega

theorem blk1 (c : Dev nD) (t : Fin cfg0.N) (p : Fin 3000) :
    RowEq (n' := 3000) (n := 300000) (iblk m c 1 t) (V m c main_v5) p (rowOf t p) := fun j => by
  obtain ⟨-, -, e0, e1, -⟩ := idx_facts t
  show V m c main_v5 (((cfg0.win 1).blk t).view.emb (ix2 p j)) = V m c main_v5 (ix2 (rowOf t p) j)
  refine congrArg (V m c main_v5) (funext fun a => Fin.ext ?_)
  match a with
  | ⟨0, _⟩ => show win0_1.index t (0 : Fin 2) * 3000 + 1 * p.val = 3000 * t.val + p.val; omega
  | ⟨1, _⟩ => show win0_1.index t (1 : Fin 2) * 256 + 1 * j.val = j.val; omega

theorem blk2 (c : Dev nD) (t : Fin cfg0.N) (p : Fin 3000) :
    RowEq (n' := 3000) (n := 300000) (iblk m c 2 t) (V m c main_arg2) p (rowOf t p) := fun j => by
  obtain ⟨-, -, -, -, e0, e1, -⟩ := idx_facts t
  show V m c main_arg2 (((cfg0.win 2).blk t).view.emb (ix2 p j)) = V m c main_arg2 (ix2 (rowOf t p) j)
  refine congrArg (V m c main_arg2) (funext fun a => Fin.ext ?_)
  match a with
  | ⟨0, _⟩ => show win0_2.index t (0 : Fin 2) * 3000 + 1 * p.val = 3000 * t.val + p.val; omega
  | ⟨1, _⟩ => show win0_2.index t (1 : Fin 2) * 3 + 1 * j.val = j.val; omega

/-! ## The weight and bias windows hold their whole arrays at every point -/

theorem blk3 (c : Dev nD) (t : Fin cfg0.N) : (iblk m c 3 t : S256x256.Idx → EReal) = V m c main_v6 := by
  obtain ⟨⟨e0, e1⟩, -, -, -, -, -, -, -, -, -⟩ := idx_fixed t
  funext y
  show V m c main_v6 (((cfg0.win 3).blk t).view.emb y) = V m c main_v6 y
  refine congrArg (V m c main_v6) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem blk4 (c : Dev nD) (t : Fin cfg0.N) : (iblk m c 4 t : S256x256.Idx → EReal) = V m c main_v7 := by
  obtain ⟨-, ⟨e0, e1⟩, -, -, -, -, -, -, -, -⟩ := idx_fixed t
  funext y
  show V m c main_v7 (((cfg0.win 4).blk t).view.emb y) = V m c main_v7 y
  refine congrArg (V m c main_v7) (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

theorem blk5 (c : Dev nD) (t : Fin cfg0.N) : (iblk m c 5 t : S3x256.Idx → EReal) = V m c main_v8 := by
  obtain ⟨-, -, ⟨e0, e1⟩, -, -, -, -, -, -, -⟩ := idx_fixed t
  funext y
  show V m c main_v8 (((cfg0.win 5).blk t).view.emb y) = V m c main_v8 y
  refine congrArg (V m c main_v8) (funext fun a => Fin.ext ?_)
  match a with
  | ⟨0, _⟩ => show win0_5.index t (0 : Fin 2) * 3 + 1 * (y 0).val = (y 0).val; omega
  | ⟨1, _⟩ => show win0_5.index t (1 : Fin 2) * 256 + 1 * (y 1).val = (y 1).val; omega

theorem blk6 (c : Dev nD) (t : Fin cfg0.N) : (iblk m c 6 t : S1x256.Idx → EReal) = V m c main_v9 := by
  obtain ⟨-, -, -, ⟨e0, e1⟩, -, -, -, -, -, -⟩ := idx_fixed t
  funext y
  show V m c main_v9 (((cfg0.win 6).blk t).view.emb y) = V m c main_v9 y
  refine congrArg (V m c main_v9) (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

theorem blk7 (c : Dev nD) (t : Fin cfg0.N) : (iblk m c 7 t : S256x128.Idx → EReal) = V m c main_arg5 := by
  obtain ⟨-, -, -, -, ⟨e0, e1⟩, -, -, -, -, -⟩ := idx_fixed t
  funext y
  show V m c main_arg5 (((cfg0.win 7).blk t).view.emb y) = V m c main_arg5 y
  refine congrArg (V m c main_arg5) (funext fun a => Fin.ext ?_)
  match a with
  | ⟨0, _⟩ => show win0_7.index t (0 : Fin 2) * 256 + 1 * (y 0).val = (y 0).val; omega
  | ⟨1, _⟩ => show win0_7.index t (1 : Fin 2) * 128 + 1 * (y 1).val = (y 1).val; omega

theorem blk8 (c : Dev nD) (t : Fin cfg0.N) : (iblk m c 8 t : S1x128.Idx → EReal) = V m c main_v10 := by
  obtain ⟨-, -, -, -, -, ⟨e0, e1⟩, -, -, -, -⟩ := idx_fixed t
  funext y
  show V m c main_v10 (((cfg0.win 8).blk t).view.emb y) = V m c main_v10 y
  refine congrArg (V m c main_v10) (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem blk9 (c : Dev nD) (t : Fin cfg0.N) : (iblk m c 9 t : S128x64.Idx → EReal) = V m c main_arg7 := by
  obtain ⟨-, -, -, -, -, -, ⟨e0, e1⟩, -, -, -⟩ := idx_fixed t
  funext y
  show V m c main_arg7 (((cfg0.win 9).blk t).view.emb y) = V m c main_arg7 y
  refine congrArg (V m c main_arg7) (funext fun a => Fin.ext ?_)
  match a with
  | ⟨0, _⟩ => show win0_9.index t (0 : Fin 2) * 128 + 1 * (y 0).val = (y 0).val; omega
  | ⟨1, _⟩ => show win0_9.index t (1 : Fin 2) * 64 + 1 * (y 1).val = (y 1).val; omega

theorem blk10 (c : Dev nD) (t : Fin cfg0.N) : (iblk m c 10 t : S1x64.Idx → EReal) = V m c main_v11 := by
  obtain ⟨-, -, -, -, -, -, -, ⟨e0, e1⟩, -, -⟩ := idx_fixed t
  funext y
  show V m c main_v11 (((cfg0.win 10).blk t).view.emb y) = V m c main_v11 y
  refine congrArg (V m c main_v11) (funext fun a => Fin.ext ?_)
  match a with
  | ⟨0, _⟩ => show win0_10.index t (0 : Fin 2) * 1 + 1 * (y 0).val = (y 0).val; omega
  | ⟨1, _⟩ => show win0_10.index t (1 : Fin 2) * 64 + 1 * (y 1).val = (y 1).val; omega

theorem blk11 (c : Dev nD) (t : Fin cfg0.N) : (iblk m c 11 t : S64x3.Idx → EReal) = V m c main_arg9 := by
  obtain ⟨-, -, -, -, -, -, -, -, ⟨e0, e1⟩, -⟩ := idx_fixed t
  funext y
  show V m c main_arg9 (((cfg0.win 11).blk t).view.emb y) = V m c main_arg9 y
  refine congrArg (V m c main_arg9) (funext fun a => Fin.ext ?_)
  match a with
  | ⟨0, _⟩ => show win0_11.index t (0 : Fin 2) * 64 + 1 * (y 0).val = (y 0).val; omega
  | ⟨1, _⟩ => show win0_11.index t (1 : Fin 2) * 3 + 1 * (y 1).val = (y 1).val; omega

theorem blk12 (c : Dev nD) (t : Fin cfg0.N) : (iblk m c 12 t : S1x3.Idx → EReal) = V m c main_v12 := by
  obtain ⟨-, -, -, -, -, -, -, -, -, ⟨e0, e1⟩⟩ := idx_fixed t
  funext y
  show V m c main_v12 (((cfg0.win 12).blk t).view.emb y) = V m c main_v12 y
  refine congrArg (V m c main_v12) (funext fun a => Fin.ext ?_)
  match a with
  | ⟨0, _⟩ => show win0_12.index t (0 : Fin 2) * 1 + 1 * (y 0).val = (y 0).val; omega
  | ⟨1, _⟩ => show win0_12.index t (1 : Fin 2) * 3 + 1 * (y 1).val = (y 1).val; omega

/-! ## What each point writes back, the cover, and the array after the run -/

/-- The classifier, in its three-product form, of the arrays as the region finds them. -/
def result (c : Dev nD) : S300000x3.Idx → EReal :=
  blockForm (n := 300000) (V m c main_v4) (V m c main_v5) (V m c main_arg2) (V m c main_v6) (V m c main_v7) (V m c main_v8)
    (V m c main_v9) (V m c main_arg5) (V m c main_v10) (V m c main_arg7) (V m c main_v11) (V m c main_arg9) (V m c main_v12)

/-- WHAT POINT t WRITES BACK is block t of `result`. -/
theorem flushed_eq (c : Dev nD) (t : Fin cfg0.N) :
    (dats m 0 c).flushed 13 t = ((cfg0.win 13).blk t).view.read (Elt Ideal) (result m c) := by
  rw [Cert.KernelIdeal.Value.flushed13, out_eq]
  obtain ⟨-, -, -, -, -, -, e0, e1⟩ := idx_facts t
  funext j
  obtain ⟨p, q, rfl⟩ : ∃ (p : Fin 3000) (q : Fin 3), j = ix2 p q := ⟨j 0, j 1, eq_ix2 j⟩
  have hemb : ((cfg0.win 13).blk t).view.emb (ix2 p q) = ix2 (rowOf t p) q := by
    funext a; apply Fin.ext
    match a with
    | ⟨0, _⟩ => show win0_13.index t (0 : Fin 2) * 3000 + 1 * p.val = 3000 * t.val + p.val; omega
    | ⟨1, _⟩ => show win0_13.index t (1 : Fin 2) * 3 + 1 * q.val = q.val; omega
  show blockForm (n := 3000) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) (ix2 p q)
    = result m c (((cfg0.win 13).blk t).view.emb (ix2 p q))
  rw [hemb, blk3 m c t, blk4 m c t, blk5 m c t, blk6 m c t, blk7 m c t, blk8 m c t, blk9 m c t, blk10 m c t, blk11 m c t,
    blk12 m c t]
  exact blockForm_rows (blk0 m c t p) (blk1 m c t p) (blk2 m c t p) _ _ _ _ _ _ _ _ _ _ q

/-- An index of the result is in point t's block iff each coordinate is in the block's range on its axis. -/
theorem mem_blk (t : Fin cfg0.N) (i : S300000x3.Idx) :
    i ∈ ((cfg0.win 13).blk t).view.set ↔ ∀ a : Fin 2, win0_13.index t a * S3000x3.size a ≤ (i a).val
      ∧ (i a).val < win0_13.index t a * S3000x3.size a + S3000x3.size a := by
  show i ∈ ((View.whole main_v13).slice (win0_13.rect t)).set ↔ _
  rw [View.set_slice_whole, Rect.mem_set_unit]
  exact Iff.rfl

/-- THE COVER: row r of the result lies in the block of point r / 3000. -/
theorem cover (i : S300000x3.Idx) :
    ∃ t : Fin cfg0.N, (cfg0.win 13).flush t = true ∧ i ∈ ((cfg0.win 13).blk t).view.set := by
  have h0 : (i 0).val < 300000 := (i 0).isLt
  have h1 : (i 1).val < 3 := (i 1).isLt
  have ht : (i 0).val / 3000 < cfg0.N := lt_of_lt_of_eq (by omega : (i 0).val / 3000 < 100) N_0.symm
  obtain ⟨-, -, -, -, -, -, e0, e1⟩ := idx_facts ⟨(i 0).val / 3000, ht⟩
  refine ⟨⟨(i 0).val / 3000, ht⟩, flush0_13 _, ?_⟩
  rw [mem_blk]
  intro a
  match a with
  | ⟨0, _⟩ =>
    show win0_13.index ⟨(i 0).val / 3000, ht⟩ (0 : Fin 2) * 3000 ≤ (i 0).val
      ∧ (i 0).val < win0_13.index ⟨(i 0).val / 3000, ht⟩ (0 : Fin 2) * 3000 + 3000
    rw [e0]; show (i 0).val / 3000 * 3000 ≤ (i 0).val ∧ (i 0).val < (i 0).val / 3000 * 3000 + 3000; omega
  | ⟨1, _⟩ =>
    show win0_13.index ⟨(i 0).val / 3000, ht⟩ (1 : Fin 2) * 3 ≤ (i 1).val
      ∧ (i 1).val < win0_13.index ⟨(i 0).val / 3000, ht⟩ (1 : Fin 2) * 3 + 3
    rw [e1]; omega

/-- THE ARRAY after the run is `result`. -/
theorem final (c : Dev nD) : (dats m 0 c).arrAt 13 cfg0.N = result m c :=
  (dats m 0 c).arrAt_eq_of_cover 13 (result m c) (fun t _ => flushed_eq m c t) cover

/-- The kernel's run: every weakly fair execution terminates with the result array at `result` and the arguments
    unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.Blocks

end
-- ==== Proof.LibWrapTake.lean ====
/-
  Two facts about words, for reading an index range out of a printed predicate and into a printed range mask.

  numpy's wrap of a negative index: for a table of N rows an index x with −N ≤ x < N is sent to x + N when x < 0 and left
  alone otherwise, and the result lies in [0, N − 1]. On 32-bit words read as signed integers, for N up to 2³⁰, the sum
  does not wrap around, so the word computed by "select (x < 0) (x + N) x" has that signed value.
  An and-reduction of one-bit words that are all 1, from an initial value 1, is 1 at every result index.
-/
import Idealize.ShloMosaic.Lib.Affine
import Idealize.ShloMosaic.Lib.ValueIdx
import Idealize.ShloMosaic.Lib.ReduceAll
import Idealize.ShloMosaic.Lib.StableHlo.Predicate

namespace Cert.LibWrapTake

open Idealize.ShloMosaic

/-- The wrapped index lies in the table: from −N ≤ x < N (signed), the word "x + N if x < 0, else x" is in [0, N − 1]. -/
theorem wrap_range (N : Nat) (hN : N ≤ 2 ^ 30) (x : BitVec 32) (hlo : -(N : Int) ≤ x.toInt) (hhi : x.toInt < N) :
    0 ≤ (Scalar.select (IntOp.cmpi .slt x 0#32) (IntOp.addi x (BitVec.ofNat 32 N)) x).toInt
    ∧ (Scalar.select (IntOp.cmpi .slt x 0#32) (IntOp.addi x (BitVec.ofNat 32 N)) x).toInt ≤ (N : Int) - 1 := by
  have h0 : (0#32 : BitVec 32).toInt = 0 := by decide
  have hNi : (BitVec.ofNat 32 N).toInt = N := StableHlo.Predicate.toInt_ofNat_small N (by omega)
  have hN' : (N : Int) ≤ 2 ^ 30 := by exact_mod_cast hN
  by_cases hx : x.toInt < 0
  · have hc : IntOp.cmpi .slt x 0#32 = 1#1 := IntOp.cmpi_slt.2 (by rw [h0]; exact hx)
    rw [hc, ValueIdx.select_one]
    show 0 ≤ (x + BitVec.ofNat 32 N).toInt ∧ (x + BitVec.ofNat 32 N).toInt ≤ (N : Int) - 1
    rw [BitVec.toInt_add, hNi, Int.bmod_eq_of_le (by omega) (by omega)]
    omega
  · have hc : IntOp.cmpi .slt x 0#32 = 0#1 :=
      ValueIdx.eq_zero_of_ne_one (fun h => hx (by have := IntOp.cmpi_slt.1 h; rwa [h0] at this))
    rw [hc, ValueIdx.select_zero]
    omega

/-- A left fold by `and` over one-bit words that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a List.mem_cons_self⟩) (fun n hn => hl n (List.mem_cons_of_mem _ hn))

/-- An and-reduction of an array of 1s from the initial value 1 is 1 everywhere. -/
theorem reduce_andi_one_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun i _ => hx i)

end Cert.LibWrapTake
-- ==== Proof.Take.lean ====
/-
  jnp.take as the kernel's program spells it, and what the kernel's windows hold on entry to its region.

  Both gathered windows are jnp.take of the node table at one row of the index array: negative indices wrapped by
  adding 50000, the table's rows gathered at the wrapped indices, and every row whose wrapped index falls outside
  [0, 49999] replaced by a row of NaN patterns. Where every index lies in [−50000, 50000) no wrapped index falls outside,
  the range mask is all ones and jnp.take is the plain gather. The other windows hold the three row bands of the first
  weight array, the bias vectors as one-row arrays, and arguments as launched.
-/
import proofs.«405570_j41429254537606_1_alg».proof.Proof.Gen.KernelIdeal.Frame
import proofs.«405570_j41429254537606_1_alg».proof.Proof.LibWrapTake
import proofs.«405570_j41429254537606_1_alg».proof.Proof.LibDense
import Idealize.ShloMosaic.Lib.StableHlo.Run
import Idealize.ShloMosaic.Lib.ValueLayout

noncomputable section

namespace Cert.Take

open Idealize.ShloMosaic Idealize.ShloMosaic.TcCoe Idealize.ShloMosaic.ValueIdx Idealize.ShloMosaic.StableHlo Idealize.SL.Sem
open Cert.KernelIdeal Cert.KernelIdeal.Gen Cert.LibDense

/-- Row r of the [2, 300000] index array, as a vector of 300000 words. -/
def idxRow (r : Nat) (hs : S2x300000.Slices ![r, 0] S1x300000) (x1 : IVec S2x300000 32) : IVec S300000 32 :=
  shapeCast S300000 (extractStridedSlice S1x300000 ![r, 0] x1 hs) shapeCasts_S1x300000_S300000

/-- numpy's wrap of negative indices into a table of 50000 rows: x + 50000 where x < 0, else x. -/
def wrap (J : IVec S300000 32) : IVec S300000 32 :=
  select (cmpi .slt J (broadcastInDim S300000 ![] bcast_S_S300000 (constantI S_ 32 0#32)))
    (addi J (broadcastInDim S300000 ![] bcast_S_S300000 (constantI S_ 32 50000#32))) J

/-- The wrapped indices as the one-column array of start indices a gather reads. -/
def startCol (J : IVec S300000 32) : IVec S300000x1 32 :=
  broadcastInDim S300000x1 ![0] bcast_S300000_S300000x1_0 (wrap J)

/-- Per index, whether the start index lies in [0, 49999]. -/
def inRange (I : IVec S300000x1 32) : IVec S300000 1 :=
  Host.reduce IntOp.andi
    (andi (cmpi .sge I (broadcastInDim S300000x1 ![] bcast_S_S300000x1 (constantI S_ 32 0#32)))
      (cmpi .sle I (broadcastInDim S300000x1 ![0, 1] bcast_S1x1_S300000x1_0_1
        (broadcastInDim S1x1 ![1] bcast_S1_S1x1_1 (constantI S1 32 49999#32)))))
    (constantI S_ 1 1#1) reducesTo_S300000x1_S300000_d1 h_S_

/-- The table's rows at the start indices (the gather clamps a start index into the table). -/
def rowsAt (x0 : FVec Ideal S50000x256 .f32) (I : IVec S300000x1 32) : FVec Ideal S300000x256 .f32 :=
  Host.gather gather_S50000x256_S300000x1_S300000x256_1_0_n_n_0_1_1256 x0 I

/-- jnp.take in its default mode: the gathered row where the wrapped index is in range, a row of NaN patterns where it
    is not. -/
def taken (x0 : FVec Ideal S50000x256 .f32) (J : IVec S300000 32) : FVec Ideal S300000x256 .f32 :=
  select (broadcastInDim S300000x256 ![0] bcast_S300000_S300000x256_0 (inRange (startCol J))) (rowsAt x0 (startCol J))
    (broadcastInDim S300000x256 ![] bcast_S_S300000x256 (constant (F := Ideal) S_ .f32 0x7FC00000#32))

variable (m : (ℓ : Loc nD τ sig) → Buf (Elt Ideal) ℓ)

set_option maxRecDepth 200000 in
/-- On entry to the kernel's region the first window's array holds jnp.take of the node table at row 0 of the index
    array. -/
theorem V_src (c : Dev nD) :
    (V m c main_v4 : S300000x256.Idx → EReal)
      = taken (m ((c : Thread nD τ).loc main_arg0)) (idxRow 0 slices_S2x300000_S1x300000_0_0 (m ((c : Thread nD τ).loc main_arg1))) := by
  dsimp only [V]
  simp only [hostOps0, hostOps0_1, hostOps0_2, hostOps0_3, List.flatten_cons, List.flatten_nil, List.append_nil,
    List.cons_append, List.nil_append]
  after_results_simp
  simp only [TRef.toBuf, TRef.ofBuf, cast_eq]
  unfold taken rowsAt inRange startCol wrap idxRow
  rfl

set_option maxRecDepth 200000 in
/-- The second window's array likewise, at row 1 of the index array. -/
theorem V_dst (c : Dev nD) :
    (V m c main_v5 : S300000x256.Idx → EReal)
      = taken (m ((c : Thread nD τ).loc main_arg0)) (idxRow 1 slices_S2x300000_S1x300000_1_0 (m ((c : Thread nD τ).loc main_arg1))) := by
  dsimp only [V]
  simp only [hostOps0, hostOps0_1, hostOps0_2, hostOps0_3, List.flatten_cons, List.flatten_nil, List.append_nil,
    List.cons_append, List.nil_append]
  after_results_simp
  simp only [TRef.toBuf, TRef.ofBuf, cast_eq]
  unfold taken rowsAt inRange startCol wrap idxRow
  rfl

/-! ## The weight bands and the one-row biases -/

set_option maxRecDepth 200000 in
/-- Rows 0–255 of the first weight array. -/
theorem V_w1s (c : Dev nD) :
    (V m c main_v6 : S256x256.Idx → EReal) = band (K := 515) 0 (by omega) (m ((c : Thread nD τ).loc main_arg3)) := by
  have e : (V m c main_v6 : S256x256.Idx → EReal)
      = extractStridedSlice S256x256 ![0, 0] (m ((c : Thread nD τ).loc main_arg3)) slices_S515x256_S256x256_0_0 := by
    dsimp only [V]
    simp only [hostOps0, hostOps0_1, hostOps0_2, hostOps0_3, List.flatten_cons, List.flatten_nil, List.append_nil,
      List.cons_append, List.nil_append]
    after_results_simp
  rw [e]
  funext i
  obtain ⟨j, q, rfl⟩ : ∃ (j : Fin 256) (q : Fin 256), i = ix2 j q := ⟨i 0, i 1, eq_ix2 i⟩
  exact slice2_axis0_apply 0 _ slices_S515x256_S256x256_0_0 j q ⟨0 + j.val, by omega⟩ rfl

set_option maxRecDepth 200000 in
/-- Rows 256–511 of the first weight array. -/
theorem V_w1d (c : Dev nD) :
    (V m c main_v7 : S256x256.Idx → EReal) = band (K := 515) 256 (by omega) (m ((c : Thread nD τ).loc main_arg3)) := by
  have e : (V m c main_v7 : S256x256.Idx → EReal)
      = extractStridedSlice S256x256 ![256, 0] (m ((c : Thread nD τ).loc main_arg3)) slices_S515x256_S256x256_256_0 := by
    dsimp only [V]
    simp only [hostOps0, hostOps0_1, hostOps0_2, hostOps0_3, List.flatten_cons, List.flatten_nil, List.append_nil,
      List.cons_append, List.nil_append]
    after_results_simp
  rw [e]
  funext i
  obtain ⟨j, q, rfl⟩ : ∃ (j : Fin 256) (q : Fin 256), i = ix2 j q := ⟨i 0, i 1, eq_ix2 i⟩
  exact slice2_axis0_apply 256 _ slices_S515x256_S256x256_256_0 j q ⟨256 + j.val, by omega⟩ rfl

set_option maxRecDepth 200000 in
/-- Rows 512–514 of the first weight array. -/
theorem V_w1e (c : Dev nD) :
    (V m c main_v8 : S3x256.Idx → EReal) = band (K := 515) 512 (by omega) (m ((c : Thread nD τ).loc main_arg3)) := by
  have e : (V m c main_v8 : S3x256.Idx → EReal)
      = extractStridedSlice S3x256 ![512, 0] (m ((c : Thread nD τ).loc main_arg3)) slices_S515x256_S3x256_512_0 := by
    dsimp only [V]
    simp only [hostOps0, hostOps0_1, hostOps0_2, hostOps0_3, List.flatten_cons, List.flatten_nil, List.append_nil,
      List.cons_append, List.nil_append]
    after_results_simp
  rw [e]
  funext i
  obtain ⟨j, q, rfl⟩ : ∃ (j : Fin 3) (q : Fin 256), i = ix2 j q := ⟨i 0, i 1, eq_ix2 i⟩
  exact slice2_axis0_apply 512 _ slices_S515x256_S3x256_512_0 j q ⟨512 + j.val, by omega⟩ rfl

set_option maxRecDepth 200000 in
/-- The first bias as a one-row array holds the bias vector. -/
theorem V_b1 (c : Dev nD) (q : Fin 256) :
    (V m c main_v9 : S1x256.Idx → EReal) (ix2 (0 : Fin 1) q) = m ((c : Thread nD τ).loc main_arg4) (ix1 q) := by
  have e : (V m c main_v9 : S1x256.Idx → EReal) = shapeCast S1x256 (m ((c : Thread nD τ).loc main_arg4)) shapeCasts_S256_S1x256 := by
    dsimp only [V]
    simp only [hostOps0, hostOps0_1, hostOps0_2, hostOps0_3, List.flatten_cons, List.flatten_nil, List.append_nil,
      List.cons_append, List.nil_append]
    after_results_simp
    rfl
  rw [e]
  exact shapeCast_a_1a_apply _ shapeCasts_S256_S1x256 0 q

set_option maxRecDepth 200000 in
theorem V_b2 (c : Dev nD) (q : Fin 128) :
    (V m c main_v10 : S1x128.Idx → EReal) (ix2 (0 : Fin 1) q) = m ((c : Thread nD τ).loc main_arg6) (ix1 q) := by
  have e : (V m c main_v10 : S1x128.Idx → EReal) = shapeCast S1x128 (m ((c : Thread nD τ).loc main_arg6)) shapeCasts_S128_S1x128 := by
    dsimp only [V]
    simp only [hostOps0, hostOps0_1, hostOps0_2, hostOps0_3, List.flatten_cons, List.flatten_nil, List.append_nil,
      List.cons_append, List.nil_append]
    after_results_simp
    rfl
  rw [e]
  exact shapeCast_a_1a_apply _ shapeCasts_S128_S1x128 0 q

set_option maxRecDepth 200000 in
theorem V_b3 (c : Dev nD) (q : Fin 64) :
    (V m c main_v11 : S1x64.Idx → EReal) (ix2 (0 : Fin 1) q) = m ((c : Thread nD τ).loc main_arg8) (ix1 q) := by
  have e : (V m c main_v11 : S1x64.Idx → EReal) = shapeCast S1x64 (m ((c : Thread nD τ).loc main_arg8)) shapeCasts_S64_S1x64 := by
    dsimp only [V]
    simp only [hostOps0, hostOps0_1, hostOps0_2, hostOps0_3, List.flatten_cons, List.flatten_nil, List.append_nil,
      List.cons_append, List.nil_append]
    after_results_simp
    rfl
  rw [e]
  exact shapeCast_a_1a_apply _ shapeCasts_S64_S1x64 0 q

set_option maxRecDepth 200000 in
theorem V_b4 (c : Dev nD) (q : Fin 3) :
    (V m c main_v12 : S1x3.Idx → EReal) (ix2 (0 : Fin 1) q) = m ((c : Thread nD τ).loc main_arg10) (ix1 q) := by
  have e : (V m c main_v12 : S1x3.Idx → EReal) = shapeCast S1x3 (m ((c : Thread nD τ).loc main_arg10)) shapeCasts_S3_S1x3 := by
    dsimp only [V]
    simp only [hostOps0, hostOps0_1, hostOps0_2, hostOps0_3, List.flatten_cons, List.flatten_nil, List.append_nil,
      List.cons_append, List.nil_append]
    after_results_simp
    rfl
  rw [e]
  exact shapeCast_a_1a_apply _ shapeCasts_S3_S1x3 0 q

/-! ## In range, jnp.take is the gather -/

/-- Where every wrapped index is in range, the filled result is the gathered rows. -/
theorem taken_of_inRange (x0 : FVec Ideal S50000x256 .f32) (J : IVec S300000 32)
    (h : ∀ e : Fin 300000, inRange (startCol J) (ix1 e) = 1#1) : taken x0 J = rowsAt x0 (startCol J) := by
  funext i
  obtain ⟨e, j, rfl⟩ : ∃ (e : Fin 300000) (j : Fin 256), i = ix2 e j := ⟨i 0, i 1, eq_ix2 i⟩
  unfold taken
  rw [select_apply, broadcastInDim_apply ![0] bcast_S300000_S300000x256_0 _ (ix2 e j) (ix1 e) (by
    intro a
    match a with
    | ⟨0, _⟩ => show e.val = if (300000 : Nat) = 1 then 0 else e.val; rw [if_neg (by decide)]), h e, select_one]

/-- A start index is the wrapped word of the index it came from. -/
theorem startCol_apply (J : IVec S300000 32) (e : Fin 300000) (u : Fin 1) :
    startCol J (ix2 e u)
      = Scalar.select (IntOp.cmpi .slt (J (ix1 e)) 0#32) (IntOp.addi (J (ix1 e)) 50000#32) (J (ix1 e)) := by
  unfold startCol
  rw [broadcastInDim_apply ![0] bcast_S300000_S300000x1_0 _ (ix2 e u) (ix1 e) (by
    intro a
    match a with
    | ⟨0, _⟩ => show e.val = if (300000 : Nat) = 1 then 0 else e.val; rw [if_neg (by decide)])]
  unfold wrap
  rw [select_apply, broadcastInDim_constantI, broadcastInDim_constantI]
  rfl

/-- THE RANGE MASK IS ALL ONES when every index lies in [−50000, 50000): its wrapped word is then in [0, 49999]. -/
theorem inRange_of_bounds (J : IVec S300000 32)
    (h : ∀ e : Fin 300000, -50000 ≤ (J (ix1 e)).toInt ∧ (J (ix1 e)).toInt < 50000) (e : Fin 300000) :
    inRange (startCol J) (ix1 e) = 1#1 := by
  unfold inRange
  refine Cert.LibWrapTake.reduce_andi_one_of_all _ _ _ _ (fun _ => rfl) (fun i => ?_) _
  obtain ⟨e', u, rfl⟩ : ∃ (e' : Fin 300000) (u : Fin 1), i = ix2 e' u := ⟨i 0, i 1, eq_ix2 i⟩
  obtain ⟨hlo, hhi⟩ := h e'
  obtain ⟨w0, w1⟩ := Cert.LibWrapTake.wrap_range 50000 (by norm_num) (J (ix1 e')) (by exact_mod_cast hlo) (by exact_mod_cast hhi)
  show IntOp.andi (IntOp.cmpi .sge (startCol J (ix2 e' u)) _) (IntOp.cmpi .sle (startCol J (ix2 e' u)) _) = 1#1
  rw [startCol_apply, broadcastInDim_constantI, broadcastInDim_constantI, broadcastInDim_oneRow_apply]
  refine IntOp.andi_eq_one.2 ⟨IntOp.cmpi_sge.2 ?_, IntOp.cmpi_sle.2 ?_⟩
  · show (0#32 : BitVec 32).toInt ≤ _
    have h0 : (0#32 : BitVec 32).toInt = 0 := by decide
    rw [h0]; exact w0
  · show _ ≤ (49999#32 : BitVec 32).toInt
    have h1 : (49999#32 : BitVec 32).toInt = 49999 := by decide
    rw [h1]; exact_mod_cast w1

/-- Entry e of row r of the index array, read as a vector, is the array's entry (r, e). -/
theorem idxRow_apply (r : Nat) (hr : r < 2) (hs : S2x300000.Slices ![r, 0] S1x300000) (x1 : IVec S2x300000 32)
    (e : Fin 300000) : idxRow r hs x1 (ix1 e) = x1 (ix2 (⟨r, hr⟩ : Fin 2) e) := by
  unfold idxRow
  rw [shapeCast_1a_a_apply _ shapeCasts_S1x300000_S300000 e]
  exact slice2_axis0_apply r x1 hs (0 : Fin 1) e ⟨r, hr⟩ (by simp)

/-- With every index in [−50000, 50000) the first window holds the node rows gathered at the wrapped source indices … -/
theorem V_src_rows (c : Dev nD)
    (h : ∀ i : S2x300000.Idx, -50000 ≤ (m ((c : Thread nD τ).loc main_arg1) i).toInt
      ∧ (m ((c : Thread nD τ).loc main_arg1) i).toInt < 50000) :
    (V m c main_v4 : S300000x256.Idx → EReal)
      = rowsAt (m ((c : Thread nD τ).loc main_arg0))
          (startCol (idxRow 0 slices_S2x300000_S1x300000_0_0 (m ((c : Thread nD τ).loc main_arg1)))) := by
  rw [V_src]
  exact taken_of_inRange _ _ (inRange_of_bounds _ (fun e => by rw [idxRow_apply 0 (by decide)]; exact h _))

/-- … and the second those gathered at the wrapped destination indices. -/
theorem V_dst_rows (c : Dev nD)
    (h : ∀ i : S2x300000.Idx, -50000 ≤ (m ((c : Thread nD τ).loc main_arg1) i).toInt
      ∧ (m ((c : Thread nD τ).loc main_arg1) i).toInt < 50000) :
    (V m c main_v5 : S300000x256.Idx → EReal)
      = rowsAt (m ((c : Thread nD τ).loc main_arg0))
          (startCol (idxRow 1 slices_S2x300000_S1x300000_1_0 (m ((c : Thread nD τ).loc main_arg1)))) := by
  rw [V_dst]
  exact taken_of_inRange _ _ (inRange_of_bounds _ (fun e => by rw [idxRow_apply 1 (by decide)]; exact h _))

end Cert.Take

end
-- ==== Proof.KernelValue.lean ====
/-
  The kernel's result array as the classifier in the reference's form.

  After the run the result array is the three-product classifier of the arrays the region finds. Those are: jnp.take of
  the node table at the two rows of the index array — the plain gathers at the wrapped indices once every index lies in
  [−50000, 50000) —, the edge attributes, the three row bands of the first weight array, the other weight arrays, and the
  biases as one-row arrays. The three-product form over the bands and one-row biases is the one-contraction form over the
  whole first weight array and the bias vectors, so the result is the classifier, in the reference's form, of the two
  gathered arrays.
-/
import proofs.«405570_j41429254537606_1_alg».proof.Proof.Blocks
import proofs.«405570_j41429254537606_1_alg».proof.Proof.Take

noncomputable section

namespace Cert.KernelValue

open Cert.KernelIdeal Cert.KernelIdeal.Gen Idealize.ShloMosaic Idealize.ShloMosaic.TcCoe Idealize.SL.Sem
open Idealize.ShloMosaic.ValueIdx Cert.LibDense Cert.Net

variable (m : (ℓ : Loc nD τ sig) → Buf (Elt Ideal) ℓ)

theorem result_eq (c : Dev nD)
    (hb : ∀ i : S2x300000.Idx, -50000 ≤ (m ((c : Thread nD τ).loc main_arg1) i).toInt
      ∧ (m ((c : Thread nD τ).loc main_arg1) i).toInt < 50000) :
    Cert.Blocks.result m c
      = edgeLogits (n := 300000)
          (Cert.Take.rowsAt (m ((c : Thread nD τ).loc main_arg0))
            (Cert.Take.startCol (Cert.Take.idxRow 0 slices_S2x300000_S1x300000_0_0 (m ((c : Thread nD τ).loc main_arg1)))))
          (Cert.Take.rowsAt (m ((c : Thread nD τ).loc main_arg0))
            (Cert.Take.startCol (Cert.Take.idxRow 1 slices_S2x300000_S1x300000_1_0 (m ((c : Thread nD τ).loc main_arg1)))))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  unfold Cert.Blocks.result
  rw [Cert.Take.V_src_rows m c hb, Cert.Take.V_dst_rows m c hb, V_main_arg2, V_main_arg5, V_main_arg7, V_main_arg9]
  exact blockForm_eq_edgeLogits _ _ _ _ _ _ _ _ _ _ _ _ _ _ _ _ _ _ (Cert.Take.V_w1s m c) (Cert.Take.V_w1d m c)
    (Cert.Take.V_w1e m c) (Cert.Take.V_b1 m c) (Cert.Take.V_b2 m c) (Cert.Take.V_b3 m c) (Cert.Take.V_b4 m c)

end Cert.KernelValue

end
-- ==== Proof.LibCat3.lean ====
/-
  The host's concatenation of three arrays along the columns is the side-by-side array: at column j it reads the first
  array when j < k₁, the second at column j − k₁ when k₁ ≤ j < k₁ + k₂, and the third at column j − k₁ − k₂ otherwise.
-/
import proofs.«405570_j41429254537606_1_alg».proof.Proof.LibDense

noncomputable section

namespace Cert.LibDense

open Idealize.ShloMosaic Idealize.ShloMosaic.ValueIdx

variable {n k₁ k₂ k₃ K : Nat}

theorem concatenate3_eq_cat3 (hK : k₁ + k₂ + k₃ = K) (x₁ : Mat n k₁) (x₂ : Mat n k₂) (x₃ : Mat n k₃)
    (h : Shape.Concatenates
      (([⟨⟨2, ![n, k₁]⟩, x₁⟩, ⟨⟨2, ![n, k₂]⟩, x₂⟩, ⟨⟨2, ![n, k₃]⟩, x₃⟩] : List ((s : Shape) × (s.Idx → EReal))).map (·.1))
      ⟨2, ![n, K]⟩ 1) :
    concatenate ⟨2, ![n, K]⟩ 1 [⟨⟨2, ![n, k₁]⟩, x₁⟩, ⟨⟨2, ![n, k₂]⟩, x₂⟩, ⟨⟨2, ![n, k₃]⟩, x₃⟩] h = cat3 hK x₁ x₂ x₃ := by
  funext i
  obtain ⟨a, j, rfl⟩ : ∃ (a : Fin n) (j : Fin K), i = ix2 a j := ⟨i 0, i 1, eq_ix2 i⟩
  rw [cat3_apply]
  have hjK := j.isLt
  by_cases h₁ : j.val < k₁
  · rw [dif_pos h₁]
    refine concatenate_apply_piece 1 _ h (ix2 a j) 0 (by simp) ⟨2, ![n, k₁]⟩ x₁ rfl rfl 0 rfl (ix2 a ⟨j.val, h₁⟩) ?_ ?_
    · intro b hb
      match b with
      | ⟨0, _⟩ => rfl
      | ⟨1, _⟩ => exact absurd rfl hb
    · show 0 + j.val = j.val; omega
  · rw [dif_neg h₁]
    by_cases h₂ : j.val < k₁ + k₂
    · rw [dif_pos h₂]
      refine concatenate_apply_piece 1 _ h (ix2 a j) 1 (by simp) ⟨2, ![n, k₂]⟩ x₂ rfl rfl k₁ (by simp)
        (ix2 a ⟨j.val - k₁, by omega⟩) ?_ ?_
      · intro b hb
        match b with
        | ⟨0, _⟩ => rfl
        | ⟨1, _⟩ => exact absurd rfl hb
      · show k₁ + (j.val - k₁) = j.val; omega
    · rw [dif_neg h₂]
      refine concatenate_apply_piece 1 _ h (ix2 a j) 2 (by simp) ⟨2, ![n, k₃]⟩ x₃ rfl rfl (k₁ + k₂) (by simp)
        (ix2 a ⟨j.val - (k₁ + k₂), by omega⟩) ?_ ?_
      · intro b hb
        match b with
        | ⟨0, _⟩ => rfl
        | ⟨1, _⟩ => exact absurd rfl hb
      · show k₁ + k₂ + (j.val - (k₁ + k₂)) = j.val; omega

end Cert.LibDense

end
-- ==== Proof.Reference.lean ====
/-
  What the reference computes: the classifier, in its own form, of the two gathered row arrays, the edge attributes and the
  weights. Its program gathers the node rows at the wrapped source and destination indices, lays them beside the
  attributes, and applies the four layers with host dot_generals; each layer read entry by entry is the affine layer, each
  jax.nn.relu the rectifier, and the concatenation the side-by-side array.
-/
import proofs.«405570_j41429254537606_1_alg».proof.Proof.Gen.ReferenceIdeal.Read
import proofs.«405570_j41429254537606_1_alg».proof.Proof.Net
import proofs.«405570_j41429254537606_1_alg».proof.Proof.LibCat3

noncomputable section

namespace Cert.RefSide

open Idealize.ShloMosaic Idealize.ShloMosaic.ValueIdx Cert.LibDense Cert.Net
open Cert.ReferenceIdeal Cert.ReferenceIdeal.Gen Cert.ReferenceIdeal.Read

/-- The reference's result is the classifier of its two gathered arrays. -/
theorem logits_eq (x0 : (⟨S50000x256, .f32⟩ : BufTy).Contents (Elt Ideal)) (x1 : (⟨S2x300000, .i32⟩ : BufTy).Contents (Elt Ideal))
    (x2 : (⟨S300000x3, .f32⟩ : BufTy).Contents (Elt Ideal)) (x3 : (⟨S515x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) (x9 : (⟨S64x3, .f32⟩ : BufTy).Contents (Elt Ideal))
    (x10 : (⟨S3, .f32⟩ : BufTy).Contents (Elt Ideal)) :
    val_main_v36 (F := Ideal) x0 x1 x2 x3 x4 x5 x6 x7 x8 x9 x10
      = edgeLogits (n := 300000) (val_main_v8 (F := Ideal) x0 x1) (val_main_v17 (F := Ideal) x0 x1) x2 x3 x4 x5 x6 x7 x8 x9 x10 := by
  unfold val_main_v36 val_main_v35 val_main_v34 val_main_v33 val_main_v32 val_main_call1_v0 val_main_call1_cst
    val_main_v31 val_main_v30 val_main_v29 val_main_v28 val_main_v27 val_main_v26 val_main_v25 val_main_v24 val_main_v23
    val_main_call0_v0 val_main_call0_cst val_main_v22 val_main_v21 val_main_v20 val_main_v19 val_main_v18
  rw [host_layer dot_S300000x64_S64x3_S300000x3_1_0_0_1_n_n rfl, host_relu,
    host_layer dot_S300000x128_S128x64_S300000x64_1_0_0_1_n_n rfl,
    host_layer dot_S300000x256_S256x128_S300000x128_1_0_0_1_n_n rfl, host_relu,
    host_layer dot_S300000x515_S515x256_S300000x256_1_0_0_1_n_n rfl,
    concatenate3_eq_cat3 (K := 515) rfl]
  rfl

end Cert.RefSide

end
-- ==== Proof.PreRange.lean ====
/-
  The index range, read out of the precondition.

  The precondition is the conjunction of "every float input is finite" with "every entry x of the index array satisfies
  −50000 ≤ x and x < 50000", the second printed as an and-reduction over the whole [2, 300000] array of the bitwise and of
  two signed word comparisons. Where the predicate is all ones that reduction is 1, so both comparisons hold at every
  entry; read as signed integers they are the two bounds.
-/
import proofs.«405570_j41429254537606_1_alg».proof.Pre_finite_inputs
import proofs.«405570_j41429254537606_1_alg».proof.Proof.Gen.Pre_finite_inputs
import Idealize.ShloMosaic.Lib.ReduceAll
import Idealize.ShloMosaic.Lib.ValueIdx
import Idealize.ShloMosaic.Lib.KernelVsHost

noncomputable section

namespace Cert.PreRange

open Idealize.ShloMosaic Idealize.ShloMosaic.ValueIdx Cert.Pre_finite_inputs

instance : Subsingleton S_.Idx := ⟨fun a b => funext fun d => d.elim0⟩

variable [Cert.Pre_finite_inputs.Facts]

/-- Where the precondition holds every index lies in [−50000, 50000). -/
theorem idx_bounds (x0 : FVec Ideal S50000x256 .f32) (x1 : IVec S2x300000 32) (x2 : FVec Ideal S300000x3 .f32)
    (x3 : FVec Ideal S515x256 .f32) (x4 : FVec Ideal S256 .f32) (x5 : FVec Ideal S256x128 .f32) (x6 : FVec Ideal S128 .f32)
    (x7 : FVec Ideal S128x64 .f32) (x8 : FVec Ideal S64 .f32) (x9 : FVec Ideal S64x3 .f32) (x10 : FVec Ideal S3 .f32)
    (h : Cert.Pre_finite_inputs.fn (F := Ideal) x0 x1 x2 x3 x4 x5 x6 x7 x8 x9 x10 = fun _ => 1#1) (i : S2x300000.Idx) :
    -50000 ≤ (x1 i).toInt ∧ (x1 i).toInt < 50000 := by
  have h0 := congrFun h ix0
  dsimp only [Cert.Pre_finite_inputs.fn, fn_part1, fn_part2, fn_part3] at h0
  obtain ⟨-, h54⟩ := IntOp.andi_eq_one.1 h0
  have h53 := Host.reduce_andi_all _ _ _ _ _ h54 i
  obtain ⟨hge, hlt⟩ := IntOp.andi_eq_one.1 h53
  have hge' : IntOp.cmpi .sge (x1 i) 4294917296#32 = 1#1 := by
    have := hge; rw [broadcastInDim_constantI] at this; exact this
  have hlt' : IntOp.cmpi .slt (x1 i) 50000#32 = 1#1 := by
    have := hlt; rw [broadcastInDim_constantI] at this; exact this
  have a := IntOp.cmpi_sge.1 hge'
  have b := IntOp.cmpi_slt.1 hlt'
  have ea : (4294917296#32 : BitVec 32).toInt = -50000 := by decide
  have eb : (50000#32 : BitVec 32).toInt = 50000 := by decide
  rw [ea] at a
  rw [eb] at b
  exact ⟨a, b⟩

end Cert.PreRange

end
-- ==== Proof.lean ====
/-
  The edge classifier of a message-passing network: a tiled kernel against its plain reference, over the extended reals.

  Both programs gather, for each of 300000 edges, the 256-number rows of its source and destination nodes out of a table of
  50000 rows, lay them beside the edge's 3 attributes, and apply four affine layers (515 → 256 → 128 → 64 → 3) with a
  rectifier after the first and the third. The kernel computes the first layer as three partial products against the
  row bands of its weight array, one block of 3000 edges per grid point; the reference computes one contraction over the
  515 concatenated columns. A sum of 515 products split at 256 and 512 is the sum of the three partial sums, by
  associativity and commutativity of addition alone, so the two agree wherever they gather the same rows — no input
  needs to be finite for that. They gather the same rows when every index lies in [−50000, 50000): both wrap a negative
  index by adding 50000, the reference then reads the table at the wrapped index clamped into it, and the kernel reads
  the table at the wrapped index where that lies in [0, 49999] and fills the row with NaN patterns where it does not —
  which under the precondition is nowhere.
-/
import proofs.«405570_j41429254537606_1_alg».proof.Defs
import proofs.«405570_j41429254537606_1_alg».proof.Proof.Gen.Kernel
import proofs.«405570_j41429254537606_1_alg».proof.Proof.Gen.Kernel.Skeleton
import proofs.«405570_j41429254537606_1_alg».proof.Proof.Gen.Kernel.Launch
import proofs.«405570_j41429254537606_1_alg».proof.Proof.Gen.Kernel.Points
import proofs.«405570_j41429254537606_1_alg».proof.Proof.Gen.Kernel.Frame
import proofs.«405570_j41429254537606_1_alg».proof.Proof.Gen.KernelIdeal
import proofs.«405570_j41429254537606_1_alg».proof.Proof.Gen.KernelIdeal.Skeleton
import proofs.«405570_j41429254537606_1_alg».proof.Proof.Gen.KernelIdeal.Launch
import proofs.«405570_j41429254537606_1_alg».proof.Proof.Gen.KernelIdeal.Points
import proofs.«405570_j41429254537606_1_alg».proof.Proof.Gen.KernelIdeal.Frame
import proofs.«405570_j41429254537606_1_alg».proof.Proof.Gen.ReferenceIdeal
import proofs.«405570_j41429254537606_1_alg».proof.Proof.Gen.Pre_finite_inputs
import proofs.«405570_j41429254537606_1_alg».proof.Proof.Gen.KernelIdeal.Value
import proofs.«405570_j41429254537606_1_alg».proof.Proof.Gen.ReferenceIdeal.Run
import proofs.«405570_j41429254537606_1_alg».proof.Proof.Gen.ReferenceIdeal.Read
import proofs.«405570_j41429254537606_1_alg».proof.Proof.KernelValue
import proofs.«405570_j41429254537606_1_alg».proof.Proof.Reference
import proofs.«405570_j41429254537606_1_alg».proof.Proof.PreRange
import Idealize.ShloMosaic.Adequacy
import Idealize.ShloMosaic.Init

noncomputable section

namespace Cert.Proof

open Idealize.ShloMosaic Idealize.ShloMosaic.TcCoe Idealize.SL.Sem

/-- The reference's two gathers are the kernel's: the table's rows at the wrapped indices of one row of the index
    array, spelt by the same operations. -/
theorem gather_src (x0 : (⟨Cert.ReferenceIdeal.S50000x256, .f32⟩ : BufTy).Contents (Elt Ideal))
    (x1 : (⟨Cert.ReferenceIdeal.S2x300000, .i32⟩ : BufTy).Contents (Elt Ideal)) :
    Cert.ReferenceIdeal.Read.val_main_v8 (F := Ideal) x0 x1
      = Cert.Take.rowsAt x0 (Cert.Take.startCol (Cert.Take.idxRow 0 Cert.KernelIdeal.Gen.slices_S2x300000_S1x300000_0_0 x1)) := by
  unfold Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_c_0
    Cert.ReferenceIdeal.Read.val_main_v3 Cert.ReferenceIdeal.Read.val_main_v2 Cert.ReferenceIdeal.Read.val_main_c
    Cert.ReferenceIdeal.Read.val_main_v1 Cert.ReferenceIdeal.Read.val_main_v0
    Cert.Take.rowsAt Cert.Take.startCol Cert.Take.wrap Cert.Take.idxRow
  rfl

theorem gather_dst (x0 : (⟨Cert.ReferenceIdeal.S50000x256, .f32⟩ : BufTy).Contents (Elt Ideal))
    (x1 : (⟨Cert.ReferenceIdeal.S2x300000, .i32⟩ : BufTy).Contents (Elt Ideal)) :
    Cert.ReferenceIdeal.Read.val_main_v17 (F := Ideal) x0 x1
      = Cert.Take.rowsAt x0 (Cert.Take.startCol (Cert.Take.idxRow 1 Cert.KernelIdeal.Gen.slices_S2x300000_S1x300000_1_0 x1)) := by
  unfold Cert.ReferenceIdeal.Read.val_main_v17 Cert.ReferenceIdeal.Read.val_main_v16 Cert.ReferenceIdeal.Read.val_main_v15
    Cert.ReferenceIdeal.Read.val_main_v14 Cert.ReferenceIdeal.Read.val_main_v13 Cert.ReferenceIdeal.Read.val_main_c_2
    Cert.ReferenceIdeal.Read.val_main_v12 Cert.ReferenceIdeal.Read.val_main_v11 Cert.ReferenceIdeal.Read.val_main_c_1
    Cert.ReferenceIdeal.Read.val_main_v10 Cert.ReferenceIdeal.Read.val_main_v9
    Cert.Take.rowsAt Cert.Take.startCol Cert.Take.wrap Cert.Take.idxRow
  rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts)
    (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end with the classifier of the same gathered rows, attributes, weights and biases. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hb : ∀ (c : Dev Cert.KernelIdeal.nD) (i : Cert.KernelIdeal.S2x300000.Idx),
      -50000 ≤ (m ((c : Thread Cert.KernelIdeal.nD Cert.KernelIdeal.τ).loc Cert.KernelIdeal.main_arg1) i).toInt
      ∧ (m ((c : Thread Cert.KernelIdeal.nD Cert.KernelIdeal.τ).loc Cert.KernelIdeal.main_arg1) i).toInt < 50000 :=
    fun c i => Cert.PreRange.idx_bounds _ _ _ _ _ _ _ _ _ _ _ (hpre c) i
  refine ⟨_, (θ_run Cert.KernelIdeal.defs _ _).mono
    (fun r h c => ⟨(h c).1.trans (Cert.KernelValue.result_eq m c (hb c)), (h c).2⟩) (Cert.Blocks.run m ρ), ?_⟩
  refine (θ_run Cert.ReferenceIdeal.defs _ _).mono (fun r h c => ⟨?_, (h c).2⟩)
    (Cert.ReferenceIdeal.Value.run (F := Ideal) m' ρ')
  obtain ⟨a0, a1, a2, a3, a4, a5, a6, a7, a8, a9, a10⟩ := hagree c
  rw [(h c).1, Cert.ReferenceIdeal.Read.val_main_v36_eq, Cert.RefSide.logits_eq, gather_src, gather_dst,
    a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
